-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S5000x1 : Shape := ⟨2, ![5000, 1]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 112
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S_, .f32⟩
  | .hbm, ⟨24, _⟩ => ⟨S800000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S800000, .f32⟩
  | .hbm, ⟨51, _⟩ => ⟨S800000x1, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S50000x128, .f32⟩
  | .hbm, ⟨86, _⟩ => ⟨S50000x64, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x64, .f32⟩
  | .hbm, ⟨96, _⟩ => ⟨S800000x64, .f32⟩
  | .hbm, ⟨97, _⟩ => ⟨S800000x64, .f32⟩
  | .hbm, ⟨98, _⟩ => ⟨S_, .f32⟩
  | .hbm, ⟨99, _⟩ => ⟨S50000x64, .f32⟩
  | .hbm, ⟨100, _⟩ => ⟨S800000x1, .i32⟩
  | .hbm, ⟨101, _⟩ => ⟨S50000x64, .f32⟩
  | .hbm, ⟨102, _⟩ => ⟨S50000x64, .f32⟩
  | .hbm, ⟨103, _⟩ => ⟨S50000x1, .i32⟩
  | .hbm, ⟨104, _⟩ => ⟨S64x64, .f32⟩
  | .hbm, ⟨105, _⟩ => ⟨S1x64, .f32⟩
  | .hbm, ⟨106, _⟩ => ⟨S64x1, .f32⟩
  | .hbm, ⟨107, _⟩ => ⟨S_, .f32⟩
  | .hbm, ⟨108, _⟩ => ⟨S64x1, .f32⟩
  | .hbm, ⟨109, _⟩ => ⟨S64x1, .f32⟩
  | .hbm, ⟨110, _⟩ => ⟨S64x64, .f32⟩
  | .hbm, ⟨111, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .i32⟩
  | .local _ .vmem, ⟨45, _⟩ => ⟨S5000x1, .i32⟩
  | .local _ .vmem, ⟨46, _⟩ => ⟨S64x64, .f32⟩
  | .local _ .vmem, ⟨47, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77_0 : Ref sig .tc := ⟨.hbm, 104, rfl⟩
abbrev main_v77_1 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  iota_S5000x64_d1_w32 : S5000x64.Iotas .tc 32 [1]
  natLt_1_32 : 1 < 32
  shapeCasts_S64x64_S64x64 : S64x64.ShapeCasts S64x64
  shapeCasts_S1x64_S1x64 : S1x64.ShapeCasts S1x64
  reduces_S5000x64_S64 : S5000x64.Reduces [0] S64
  shapeCasts_S1x64_S64x1 : S1x64.ShapeCasts S64x1
  bcast_S_S64x1 : S_.BroadcastsInDim S64x1 (![] : Fin 0 → Fin S64x1.rank)
  bcast_S64x1_S64x64_0_1 : S64x1.BroadcastsInDim S64x64 (![0, 1] : Fin 2 → Fin S64x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S5000x64_S64x64_0_0_1_1_n_n_wf : DotDims.WF S5000x64 S5000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .i32 = 32 ∨ (Rect.block (s := S50000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v75) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v77_0) S64x64.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77_1) S1x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S_, .f32⟩
  | 24 => ⟨S800000, .f32⟩
  | 25 => ⟨S50000, .f32⟩
  | 26 => ⟨S_, .f32⟩
  | 27 => ⟨S50000, .f32⟩
  | 28 => ⟨S50000, .f32⟩
  | 29 => ⟨S50000, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x1, .f32⟩
  | 107 => ⟨S800000x128, .f32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S50000, .f32⟩
  | 114 => ⟨S50000x1, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x64, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000, .f32⟩
  | 15 => ⟨S800000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x1, .f32⟩
  | 26 => ⟨S800000x64, .f32⟩
  | 27 => ⟨S800000x64, .f32⟩
  | 28 => ⟨S_, .f32⟩
  | 29 => ⟨S50000x64, .f32⟩
  | 30 => ⟨S800000x1, .i32⟩
  | 31 => ⟨S50000x64, .f32⟩
  | 32 => ⟨S50000, .f32⟩
  | 33 => ⟨S50000x1, .f32⟩
  | 34 => ⟨S50000x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S_, .f32⟩
  | 41 => ⟨S64x64, .f32⟩
  | 42 => ⟨S50000x1, .i32⟩
  | 43 => ⟨S64x64, .f32⟩
  | 44 => ⟨S_, .f32⟩
  | 45 => ⟨S50000, .f32⟩
  | 46 => ⟨S_, .f32⟩
  | 47 => ⟨S64, .f32⟩
  | 48 => ⟨S50000x1, .i32⟩
  | 49 => ⟨S64, .f32⟩
  | 50 => ⟨S_, .f32⟩
  | 51 => ⟨S64, .f32⟩
  | 52 => ⟨S64, .f32⟩
  | 53 => ⟨S64x1, .f32⟩
  | 54 => ⟨S64x64, .f32⟩
  | 55 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_cst : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_call1_cst : Ref sig .tc := ⟨.hbm, 121, rfl⟩
abbrev main_call1_v0 : Ref sig .tc := ⟨.hbm, 122, rfl⟩
abbrev main_v91 : Ref sig .tc := ⟨.hbm, 123, rfl⟩
abbrev main_v92 : Ref sig .tc := ⟨.hbm, 124, rfl⟩
abbrev main_c_17 : Ref sig .tc := ⟨.hbm, 125, rfl⟩
abbrev main_v93 : Ref sig .tc := ⟨.hbm, 126, rfl⟩
abbrev main_v94 : Ref sig .tc := ⟨.hbm, 127, rfl⟩
abbrev main_c_18 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_19 : Ref sig .tc := ⟨.hbm, 134, rfl⟩
abbrev main_v100 : Ref sig .tc := ⟨.hbm, 135, rfl⟩
abbrev main_v101 : Ref sig .tc := ⟨.hbm, 136, rfl⟩
abbrev main_c_20 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_21 : Ref sig .tc := ⟨.hbm, 144, rfl⟩
abbrev main_v108 : Ref sig .tc := ⟨.hbm, 145, rfl⟩
abbrev main_v109 : Ref sig .tc := ⟨.hbm, 146, rfl⟩
abbrev main_c_22 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_23 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_24 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_25 : Ref sig .tc := ⟨.hbm, 172, rfl⟩
abbrev main_v132 : Ref sig .tc := ⟨.hbm, 173, rfl⟩
abbrev main_cst_26 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_cst_27 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.Spec.lean ====
/-
  The whole-array functions of a graph-convolution layer's closing step and of the mean pool, over the extended reals.

  A layer ends by adding, entry by entry, the aggregated neighbour rows, the node's own row scaled by the node's
  self-loop weight (one number per row, held in a column), and the bias (one number per column); the first two layers
  then take the positive part. The pool sums the rows of each graph and counts them: node `n` belongs to graph `g`
  when its label, read as a signed integer, is `g`; the mean divides each graph's sum by its count, capped below.
-/
import Idealize.ShloMosaic.PureOps.Ideal
import Idealize.ShloMosaic.Lib.ValueIdx

noncomputable section

namespace Cert.Spec

open Idealize.ShloMosaic Idealize.ShloMosaic.ValueIdx

/-- Aggregated rows plus the own row times its row's self-loop weight plus the bias of the column. -/
def combArr {M K : ℕ} (agg h : (⟨2, ![M, K]⟩ : Shape).Idx → EReal) (dcol : (⟨2, ![M, 1]⟩ : Shape).Idx → EReal)
    (b : (⟨1, ![K]⟩ : Shape).Idx → EReal) : (⟨2, ![M, K]⟩ : Shape).Idx → EReal :=
  fun i => agg i + h i * dcol (ix2 (i 0) (0 : Fin 1)) + b (ix1 (i 1))

/-- The same, capped below by `z`. -/
def combReluArr {M K : ℕ} (agg h : (⟨2, ![M, K]⟩ : Shape).Idx → EReal) (dcol : (⟨2, ![M, 1]⟩ : Shape).Idx → EReal)
    (b : (⟨1, ![K]⟩ : Shape).Idx → EReal) (z : EReal) : (⟨2, ![M, K]⟩ : Shape).Idx → EReal :=
  fun i => max (combArr agg h dcol b i) z

/-- Entry `(g, d)`: the sum over the nodes labelled `g` of their feature `d`. -/
def poolSums {N G D : ℕ} (feat : (⟨2, ![N, D]⟩ : Shape).Idx → EReal) (lab : IVec ⟨2, ![N, 1]⟩ 32) :
    (⟨2, ![G, D]⟩ : Shape).Idx → EReal :=
  fun i => ∑ n : Fin N, if (lab (ix2 n (0 : Fin 1))).toInt = ((i 0).val : ℤ) then feat (ix2 n (i 1)) else 0

/-- Entry `(0, g)`: the number of nodes labelled `g`. -/
def poolCnts {N G : ℕ} (lab : IVec ⟨2, ![N, 1]⟩ 32) : (⟨2, ![1, G]⟩ : Shape).Idx → EReal :=
  fun i => ∑ n : Fin N, if (lab (ix2 n (0 : Fin 1))).toInt = ((i 1).val : ℤ) then (1 : EReal) else 0

/-- Each graph's sum over its count, the count capped below by `one`. -/
def meanArr {G D : ℕ} (sums : (⟨2, ![G, D]⟩ : Shape).Idx → EReal) (cnts : (⟨2, ![1, G]⟩ : Shape).Idx → EReal) (one : EReal) :
    (⟨2, ![G, D]⟩ : Shape).Idx → EReal :=
  fun i => FloatOps.hostDivf (F := Ideal) (φ := .f32) (sums i) (max (cnts (ix2 (0 : Fin 1) (i 0))) one)

end Cert.Spec

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«420736_j32487132627312_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.KernelDense0.lean ====
/-
  The first dense layer's region read as a whole array.

  The region multiplies a block of 5000 rows of its input array into the whole weight matrix and writes the
  product to the same rows of its output array, one block per grid point. At the ideal values the rounding of the
  operands on the way into the product is the identity, so the output array after the region is every row of the
  input array against the columns of the weight matrix: the blocks are restrictions of that one function, and the
  ten blocks cover the array's rows.
-/
import proofs.«420736_j32487132627312_1_alg».proof.Proof.Gen.KernelIdeal.Frame
import proofs.«420736_j32487132627312_1_alg».proof.Proof.LibRowOps
import Idealize.ShloMosaic.Lib.ValueIdx
import Idealize.ShloMosaic.Lib.Pipeline.Value

set_option maxRecDepth 16384

noncomputable section

namespace Cert.KernelIdeal.Regions

open Idealize.ShloMosaic Idealize.ShloMosaic.ValueIdx Idealize.ShloMosaic.TcCoe
open Idealize.ShloMosaic.Pipeline (Dat Cfg Window)
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The body's stored value is the block's rows against the weight matrix. -/
theorem pay0 (x0 : Vec Ideal S5000x128 .f32) (x1 : Vec Ideal S128x128 .f32) :
    k0_pay1 x0 x1 = Cert.Lib.projArr (M := 5000) (K := 128) (N := 128) x0 x1 := by
  unfold k0_pay1
  dsimp only
  try rw [shapeCast_self]
  exact Cert.Lib.kernel_matmul_eq (M := 5000) (K := 128) (N := 128) none _ _

/-- The printed index maps over the grid: the row block moves with the point, the weight block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0 (c : Dev nD) (t : Fin cfg0.N) :
    (dat0 V c).flushed 2 t = ((cfg0.win 2).blk t).view.read (Elt Ideal)
      (Cert.Lib.projArr (M := 50000) (K := 128) (N := 128) (V c main_arg0) (V c main_arg3)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  rw [pay0]
  obtain ⟨e0, e1, e2, e3, e4, e5⟩ := idx0 t
  funext j
  show Cert.Lib.projArr (M := 5000) (K := 128) (N := 128) (iblk0 V c 0 t) (iblk0 V c 1 t) j
    = Cert.Lib.projArr (M := 50000) (K := 128) (N := 128) (V c main_arg0) (V c main_arg3) (((cfg0.win 2).blk t).view.emb j)
  unfold Cert.Lib.projArr Cert.Lib.projRow
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (ix2 k (j 1)) = V c main_arg3 (ix2 k ((((cfg0.win 2).blk t).view.emb j) 1)) := by
    show V c main_arg3 (((cfg0.win 1).blk t).view.emb (ix2 k (j 1))) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) h0 h1

/-- An index of the output array lies in point `t`'s block iff each coordinate lies in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- The output array after the region: every row of the input array against the weight matrix; row `R` is written
    by point `R / 5000`. -/
theorem final0 (c : Dev nD) :
    (dat0 V c).arrAt 2 cfg0.N = Cert.Lib.projArr (M := 50000) (K := 128) (N := 128) (V c main_arg0) (V c main_arg3) := by
  refine (dat0 V c).arrAt_eq_of_cover 2 _ (fun t _ => flushed0 V c t) fun i => ?_
  have hi0 : (i 0).val < 50000 := (i 0).isLt
  have hi1 : (i 1).val < 128 := (i 1).isLt
  have hN : cfg0.N = 10 := N_0
  refine ⟨⟨(i 0).val / 5000, by omega⟩, flush0_2 _, ?_⟩
  rw [mem_blk0]
  obtain ⟨e0, e1, e2, e3, e4, e5⟩ := idx0 ⟨(i 0).val / 5000, by omega⟩
  intro a
  match a with
  | ⟨0, _⟩ => show win0_2.index _ (0 : Fin 2) * 5000 ≤ (i 0).val ∧ (i 0).val < win0_2.index _ (0 : Fin 2) * 5000 + 5000; rw [e4]; dsimp only; omega
  | ⟨1, _⟩ => show win0_2.index _ (1 : Fin 2) * 128 ≤ (i 1).val ∧ (i 1).val < win0_2.index _ (1 : Fin 2) * 128 + 128; rw [e5]; omega

end Cert.KernelIdeal.Regions

end
-- ==== Proof.KernelDense2.lean ====
/-
  The second dense layer's region read as a whole array.

  The region multiplies a block of 5000 rows of its input array into the whole weight matrix and writes the
  product to the same rows of its output array, one block per grid point. At the ideal values the rounding of the
  operands on the way into the product is the identity, so the output array after the region is every row of the
  input array against the columns of the weight matrix: the blocks are restrictions of that one function, and the
  ten blocks cover the array's rows.
-/
import proofs.«420736_j32487132627312_1_alg».proof.Proof.Gen.KernelIdeal.Frame
import proofs.«420736_j32487132627312_1_alg».proof.Proof.LibRowOps
import Idealize.ShloMosaic.Lib.ValueIdx
import Idealize.ShloMosaic.Lib.Pipeline.Value

set_option maxRecDepth 16384

noncomputable section

namespace Cert.KernelIdeal.Regions

open Idealize.ShloMosaic Idealize.ShloMosaic.ValueIdx Idealize.ShloMosaic.TcCoe
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the block's rows against the weight matrix. -/
theorem pay2 (x0 : Vec Ideal S5000x128 .f32) (x1 : Vec Ideal S128x128 .f32) :
    k2_pay1 x0 x1 = Cert.Lib.projArr (M := 5000) (K := 128) (N := 128) x0 x1 := by
  unfold k2_pay1
  dsimp only
  try rw [shapeCast_self]
  exact Cert.Lib.kernel_matmul_eq (M := 5000) (K := 128) (N := 128) none _ _

/-- The printed index maps over the grid: the row block moves with the point, the weight block stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed2 (c : Dev nD) (t : Fin cfg2.N) :
    (dat2 V c).flushed 2 t = ((cfg2.win 2).blk t).view.read (Elt Ideal)
      (Cert.Lib.projArr (M := 50000) (K := 128) (N := 128) (V c main_v47) (V c main_arg5)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  rw [pay2]
  obtain ⟨e0, e1, e2, e3, e4, e5⟩ := idx2 t
  funext j
  show Cert.Lib.projArr (M := 5000) (K := 128) (N := 128) (iblk2 V c 0 t) (iblk2 V c 1 t) j
    = Cert.Lib.projArr (M := 50000) (K := 128) (N := 128) (V c main_v47) (V c main_arg5) (((cfg2.win 2).blk t).view.emb j)
  unfold Cert.Lib.projArr Cert.Lib.projRow
  refine Finset.sum_congr rfl fun k _ => ?_
  have h0 : iblk2 V c 0 t (ix2 (j 0) k) = V c main_v47 (ix2 ((((cfg2.win 2).blk t).view.emb j) 0) k) := by
    show V c main_v47 (((cfg2.win 0).blk t).view.emb (ix2 (j 0) k)) = _
    refine congrArg (V c main_v47) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : iblk2 V c 1 t (ix2 k (j 1)) = V c main_arg5 (ix2 k ((((cfg2.win 2).blk t).view.emb j) 1)) := by
    show V c main_arg5 (((cfg2.win 1).blk t).view.emb (ix2 k (j 1))) = _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  exact congrArg₂ (· * ·) h0 h1

/-- An index of the output array lies in point `t`'s block iff each coordinate lies in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The output array after the region: every row of the input array against the weight matrix; row `R` is written
    by point `R / 5000`. -/
theorem final2 (c : Dev nD) :
    (dat2 V c).arrAt 2 cfg2.N = Cert.Lib.projArr (M := 50000) (K := 128) (N := 128) (V c main_v47) (V c main_arg5) := by
  refine (dat2 V c).arrAt_eq_of_cover 2 _ (fun t _ => flushed2 V c t) fun i => ?_
  have hi0 : (i 0).val < 50000 := (i 0).isLt
  have hi1 : (i 1).val < 128 := (i 1).isLt
  have hN : cfg2.N = 10 := N_2
  refine ⟨⟨(i 0).val / 5000, by omega⟩, flush2_2 _, ?_⟩
  rw [mem_blk2]
  obtain ⟨e0, e1, e2, e3, e4, e5⟩ := idx2 ⟨(i 0).val / 5000, by omega⟩
  intro a
  match a with
  | ⟨0, _⟩ => show win2_2.index _ (0 : Fin 2) * 5000 ≤ (i 0).val ∧ (i 0).val < win2_2.index _ (0 : Fin 2) * 5000 + 5000; rw [e4]; dsimp only; omega
  | ⟨1, _⟩ => show win2_2.index _ (1 : Fin 2) * 128 ≤ (i 1).val ∧ (i 1).val < win2_2.index _ (1 : Fin 2) * 128 + 128; rw [e5]; omega

end Cert.KernelIdeal.Regions

end
-- ==== Proof.KernelDense4.lean ====
/-
  The third dense layer's region read as a whole array.

  The region multiplies a block of 5000 rows of its input array into the whole weight matrix and writes the
  product to the same rows of its output array, one block per grid point. At the ideal values the rounding of the
  operands on the way into the product is the identity, so the output array after the region is every row of the
  input array against the columns of the weight matrix: the blocks are restrictions of that one function, and the
  ten blocks cover the array's rows.
-/
import proofs.«420736_j32487132627312_1_alg».proof.Proof.Gen.KernelIdeal.Frame
import proofs.«420736_j32487132627312_1_alg».proof.Proof.LibRowOps
import Idealize.ShloMosaic.Lib.ValueIdx
import Idealize.ShloMosaic.Lib.Pipeline.Value

set_option maxRecDepth 16384

noncomputable section

namespace Cert.KernelIdeal.Regions

open Idealize.ShloMosaic Idealize.ShloMosaic.ValueIdx Idealize.ShloMosaic.TcCoe
open Idealize.ShloMosaic.Pipeline (Dat Cfg Window)
open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-- The body's stored value is the block's rows against the weight matrix. -/
theorem pay4 (x0 : Vec Ideal S5000x128 .f32) (x1 : Vec Ideal S128x64 .f32) :
    k4_pay1 x0 x1 = Cert.Lib.projArr (M := 5000) (K := 128) (N := 64) x0 x1 := by
  unfold k4_pay1
  dsimp only
  try rw [shapeCast_self]
  exact Cert.Lib.kernel_matmul_eq (M := 5000) (K := 128) (N := 64) none _ _

/-- The printed index maps over the grid: the row block moves with the point, the weight block stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product. -/
theorem flushed4 (c : Dev nD) (t : Fin cfg4.N) :
    (dat4 V c).flushed 2 t = ((cfg4.win 2).blk t).view.read (Elt Ideal)
      (Cert.Lib.projArr (M := 50000) (K := 128) (N := 64) (V c main_v61) (V c main_arg7)) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x64) hz4]
  rw [pay4]
  obtain ⟨e0, e1, e2, e3, e4, e5⟩ := idx4 t
  funext j
  show Cert.Lib.projArr (M := 5000) (K := 128) (N := 64) (iblk4 V c 0 t) (iblk4 V c 1 t) j
    = Cert.Lib.projArr (M := 50000) (K := 128) (N := 64) (V c main_v61) (V c main_arg7) (((cfg4.win 2).blk t).view.emb j)
  unfold Cert.Lib.projArr Cert.Lib.projRow
  refine Finset.sum_congr rfl fun k _ => ?_
  have h0 : iblk4 V c 0 t (ix2 (j 0) k) = V c main_v61 (ix2 ((((cfg4.win 2).blk t).view.emb j) 0) k) := by
    show V c main_v61 (((cfg4.win 0).blk t).view.emb (ix2 (j 0) k)) = _
    refine congrArg (V c main_v61) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : iblk4 V c 1 t (ix2 k (j 1)) = V c main_arg7 (ix2 k ((((cfg4.win 2).blk t).view.emb j) 1)) := by
    show V c main_arg7 (((cfg4.win 1).blk t).view.emb (ix2 k (j 1))) = _
    refine congrArg (V c main_arg7) (funext fun a => Fin.ext ?_)
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  exact congrArg₂ (· * ·) h0 h1

/-- An index of the output array lies in point `t`'s block iff each coordinate lies in the block's range. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- The output array after the region: every row of the input array against the weight matrix; row `R` is written
    by point `R / 5000`. -/
theorem final4 (c : Dev nD) :
    (dat4 V c).arrAt 2 cfg4.N = Cert.Lib.projArr (M := 50000) (K := 128) (N := 64) (V c main_v61) (V c main_arg7) := by
  refine (dat4 V c).arrAt_eq_of_cover 2 _ (fun t _ => flushed4 V c t) fun i => ?_
  have hi0 : (i 0).val < 50000 := (i 0).isLt
  have hi1 : (i 1).val < 64 := (i 1).isLt
  have hN : cfg4.N = 10 := N_4
  refine ⟨⟨(i 0).val / 5000, by omega⟩, flush4_2 _, ?_⟩
  rw [mem_blk4]
  obtain ⟨e0, e1, e2, e3, e4, e5⟩ := idx4 ⟨(i 0).val / 5000, by omega⟩
  intro a
  match a with
  | ⟨0, _⟩ => show win4_2.index _ (0 : Fin 2) * 5000 ≤ (i 0).val ∧ (i 0).val < win4_2.index _ (0 : Fin 2) * 5000 + 5000; rw [e4]; dsimp only; omega
  | ⟨1, _⟩ => show win4_2.index _ (1 : Fin 2) * 64 ≤ (i 1).val ∧ (i 1).val < win4_2.index _ (1 : Fin 2) * 64 + 64; rw [e5]; omega

end Cert.KernelIdeal.Regions

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelCombine.lean ====
/-
  The values of the three closing steps of the graph-convolution layers.

  Each step runs over ten points. At point `t` it reads rows `5000·t … 5000·t + 4999` of the aggregated neighbour rows,
  of the node rows and of the self-loop column, and the whole bias vector, and writes the same rows of its output: the
  aggregated entry plus the node's entry times its row's self-loop weight plus the column's bias, and for the first two
  layers the positive part of that. Every row lies in exactly one point's block, so the output array as a whole is the
  same entry-wise formula over the whole input arrays.
-/
import proofs.«420736_j32487132627312_1_alg».proof.Proof.Gen.KernelIdeal.Frame
import proofs.«420736_j32487132627312_1_alg».proof.Proof.Spec
import proofs.«420736_j32487132627312_1_alg».proof.Proof.LibKeepdims
import proofs.«420736_j32487132627312_1_alg».proof.Proof.LibRowOps
import Idealize.ShloMosaic.Lib.ValueIdx
import Idealize.ShloMosaic.Lib.Pipeline.Value

set_option maxRecDepth 16384

noncomputable section

namespace Cert.KernelIdeal.Regions

open Idealize.ShloMosaic Idealize.ShloMosaic.ValueIdx Idealize.ShloMosaic.TcCoe
open Idealize.ShloMosaic.Pipeline (Dat Cfg Window)
open Cert.KernelIdeal Cert.KernelIdeal.Gen

variable (V : (c : Dev nD) → (b : Ref sig .tc) → Buf (Elt Ideal) ((c : Thread nD τ).loc b))

/-- the zero word of the positive part, as the body spells it -/
abbrev zeroWord : EReal := Scalar.ofBits (F := Ideal) .f32 0x00000000#32

/-! ## The body's arithmetic on one block -/

/-- The all-zero offset of a rank-2 access, as a function. -/
theorem zero2 : (![0, 0] : Fin 2 → Nat) = fun _ => 0 := funext fun a => by fin_cases a <;> rfl

/-- The all-zero offset of a rank-1 access, as a function. -/
theorem zero1 : (![0] : Fin 1 → Nat) = fun _ => 0 := funext fun a => by fin_cases a; rfl

/-- A length-`K` vector cast to a `[1, K]` row reads, at `(u, q)`, the vector's entry `q`. -/
theorem shapeCast_row_apply {α : Type} {K : ℕ} (x : (⟨1, ![K]⟩ : Shape).Idx → α)
    (h : (⟨1, ![K]⟩ : Shape).ShapeCasts ⟨2, ![1, K]⟩) (u : Fin 1) (q : Fin K) :
    shapeCast ⟨2, ![1, K]⟩ x h (ix2 u q) = x (ix1 q) :=
  shapeCast_apply x h _ _ (by
    have hu : u.val = 0 := by omega
    rw [Shape.rowMajor_val_two, Shape.rowMajor_val_one]
    show q.val = u.val * K + q.val
    rw [hu, Nat.zero_mul, Nat.zero_add])

/-- One block of a layer's closing step with the positive part, entry by entry. -/
theorem pay1 (x0 x1 : Vec Ideal S5000x128 .f32) (x2 : Vec Ideal S5000x1 .f32) (x3 : Vec Ideal S128 .f32) :
    k1_pay1 x0 x1 x2 x3 = Cert.Spec.combReluArr (M := 5000) (K := 128) x0 x1 x2 x3 zeroWord := by
  funext j
  obtain ⟨p, q, rfl⟩ : ∃ (p : Fin 5000) (q : Fin 128), j = ix2 p q := ⟨j 0, j 1, eq_ix2 j⟩
  unfold k1_pay1
  rw [maximumf_apply, addf_apply, addf_apply, mulf_apply, shapeCast_self, shapeCast_self, shapeCast_self, broadcast_apply,
    Cert.Lib.broadcastTo_a1_ab_apply, Cert.Lib.broadcastTo_row_apply, shapeCast_row_apply]
  rfl

/-- The second layer's block: the same arithmetic as the first's. -/
theorem pay3 (x0 x1 : Vec Ideal S5000x128 .f32) (x2 : Vec Ideal S5000x1 .f32) (x3 : Vec Ideal S128 .f32) :
    k3_pay1 x0 x1 x2 x3 = Cert.Spec.combReluArr (M := 5000) (K := 128) x0 x1 x2 x3 zeroWord := by
  funext j
  obtain ⟨p, q, rfl⟩ : ∃ (p : Fin 5000) (q : Fin 128), j = ix2 p q := ⟨j 0, j 1, eq_ix2 j⟩
  unfold k3_pay1
  rw [maximumf_apply, addf_apply, addf_apply, mulf_apply, shapeCast_self, shapeCast_self, shapeCast_self, broadcast_apply,
    Cert.Lib.broadcastTo_a1_ab_apply, Cert.Lib.broadcastTo_row_apply, shapeCast_row_apply]
  rfl

/-- The last layer's block: 64 columns, and no positive part. -/
theorem pay5 (x0 x1 : Vec Ideal S5000x64 .f32) (x2 : Vec Ideal S5000x1 .f32) (x3 : Vec Ideal S64 .f32) :
    k5_pay1 x0 x1 x2 x3 = Cert.Spec.combArr (M := 5000) (K := 64) x0 x1 x2 x3 := by
  funext j
  obtain ⟨p, q, rfl⟩ : ∃ (p : Fin 5000) (q : Fin 64), j = ix2 p q := ⟨j 0, j 1, eq_ix2 j⟩
  unfold k5_pay1
  rw [addf_apply, addf_apply, mulf_apply, shapeCast_self, shapeCast_self, shapeCast_self,
    Cert.Lib.broadcastTo_a1_ab_apply, Cert.Lib.broadcastTo_row_apply, shapeCast_row_apply]
  rfl

/-! ## Region 1: the first layer's closing step -/

/-- The windows are the arrays named in the statement. -/
example : Pipeline.arrRef spec1 0 = main_v46 ∧ Pipeline.arrRef spec1 1 = main_v34 ∧ Pipeline.arrRef spec1 2 = main_v17
    ∧ Pipeline.arrRef spec1 3 = main_arg4 ∧ Pipeline.arrRef spec1 4 = main_v47 := ⟨rfl, rfl, rfl, rfl, rfl⟩

/-- The block indices, decided over the ten points: the row windows sit at block `t` of axis 0 and block 0 of axis 1,
    the bias window at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point `t` writes back is block `t` of the closing step of the whole input arrays. -/
theorem flushed1 (c : Dev nD) (t : Fin cfg1.N) :
    (dat1 V c).flushed 4 t = ((cfg1.win 4).blk t).view.read (Elt Ideal)
      (Cert.Spec.combReluArr (M := 50000) (K := 128) (V c main_v46) (V c main_v34) (V c main_v17) (V c main_arg4) zeroWord) := by
  show (cfg1.win 4).cut (grid1.coords t) ((dat1 V c).after 4 t) = _
  rw [after1_4]
  unfold out1_4
  rw [View.canon_unit_zero zero2]
  simp only [View.ld_unit_zero (S := S5000x128) zero2, View.ld_unit_zero (S := S5000x1) zero2, View.ld_unit_zero (S := S128) zero1]
  rw [pay1]
  obtain ⟨e00, e01, e10, e11, e20, e21, e30, e40, e41⟩ := idx1 t
  funext j
  show Cert.Spec.combReluArr (M := 5000) (K := 128) (iblk1 V c 0 t) (iblk1 V c 1 t) (iblk1 V c 2 t) (iblk1 V c 3 t) zeroWord j
    = Cert.Spec.combReluArr (M := 50000) (K := 128) (V c main_v46) (V c main_v34) (V c main_v17) (V c main_arg4) zeroWord
        (((cfg1.win 4).blk t).view.emb j)
  unfold Cert.Spec.combReluArr Cert.Spec.combArr
  have h0 : iblk1 V c 0 t j = V c main_v46 (((cfg1.win 4).blk t).view.emb j) := by
    show V c main_v46 (((cfg1.win 0).blk t).view.emb j) = _
    refine congrArg (V c main_v46) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : iblk1 V c 1 t j = V c main_v34 (((cfg1.win 4).blk t).view.emb j) := by
    show V c main_v34 (((cfg1.win 1).blk t).view.emb j) = _
    refine congrArg (V c main_v34) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : iblk1 V c 2 t (ix2 (j 0) (0 : Fin 1)) = V c main_v17 (ix2 ((((cfg1.win 4).blk t).view.emb j) 0) (0 : Fin 1)) := by
    show V c main_v17 (((cfg1.win 2).blk t).view.emb (ix2 (j 0) (0 : Fin 1))) = _
    refine congrArg (V c main_v17) (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : iblk1 V c 3 t (ix1 (j 1)) = V c main_arg4 (ix1 ((((cfg1.win 4).blk t).view.emb j) 1)) := by
    show V c main_arg4 (((cfg1.win 3).blk t).view.emb (ix1 (j 1))) = _
    refine congrArg (V c main_arg4) (funext fun a => Fin.ext ?_)
    match a with
    | ⟨0, _⟩ => show win1_3.index t (0 : Fin 1) * 128 + 1 * (j 1).val = win1_4.index t (1 : Fin 2) * 128 + 1 * (j 1).val; omega
  rw [h0, h1, h2, h3]

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v47).slice (win1_4.rect t)).set ↔ _
  rw [View.set_slice_whole, Rect.mem_set_unit]
  exact Iff.rfl

/-- The first layer's output array: the closing step with the positive part, over the whole input arrays. -/
theorem final1 (c : Dev nD) : (dat1 V c).arrAt 4 cfg1.N
    = Cert.Spec.combReluArr (M := 50000) (K := 128) (V c main_v46) (V c main_v34) (V c main_v17) (V c main_arg4) zeroWord := by
  refine (dat1 V c).arrAt_eq_of_cover 4 _ (fun t _ => flushed1 V c t) fun i => ?_
  have hi0 : (i 0).val < 50000 := (i 0).isLt
  have hi1 : (i 1).val < 128 := (i 1).isLt
  have hN : cfg1.N = 10 := N_1
  refine ⟨⟨(i 0).val / 5000, by omega⟩, flush1_4 _, ?_⟩
  rw [mem_blk1]
  obtain ⟨-, -, -, -, -, -, -, e40, e41⟩ := idx1 ⟨(i 0).val / 5000, by omega⟩
  intro a
  match a with
  | ⟨0, _⟩ => show win1_4.index _ (0 : Fin 2) * 5000 ≤ (i 0).val ∧ (i 0).val < win1_4.index _ (0 : Fin 2) * 5000 + 5000; rw [e40]; dsimp only; omega
  | ⟨1, _⟩ => show win1_4.index _ (1 : Fin 2) * 128 ≤ (i 1).val ∧ (i 1).val < win1_4.index _ (1 : Fin 2) * 128 + 128; rw [e41]; omega

/-! ## Region 3: the second layer's closing step -/

/-- The windows are the arrays named in the statement. -/
example : Pipeline.arrRef spec3 0 = main_v60 ∧ Pipeline.arrRef spec3 1 = main_v48 ∧ Pipeline.arrRef spec3 2 = main_v17
    ∧ Pipeline.arrRef spec3 3 = main_arg6 ∧ Pipeline.arrRef spec3 4 = main_v61 := ⟨rfl, rfl, rfl, rfl, rfl⟩

/-- The block indices of the second layer's windows, decided over the ten points. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point `t` of the second layer writes back is block `t` of the closing step of the whole input arrays. -/
theorem flushed3 (c : Dev nD) (t : Fin cfg3.N) :
    (dat3 V c).flushed 4 t = ((cfg3.win 4).blk t).view.read (Elt Ideal)
      (Cert.Spec.combReluArr (M := 50000) (K := 128) (V c main_v60) (V c main_v48) (V c main_v17) (V c main_arg6) zeroWord) := by
  show (cfg3.win 4).cut (grid3.coords t) ((dat3 V c).after 4 t) = _
  rw [after3_4]
  unfold out3_4
  rw [View.canon_unit_zero zero2]
  simp only [View.ld_unit_zero (S := S5000x128) zero2, View.ld_unit_zero (S := S5000x1) zero2, View.ld_unit_zero (S := S128) zero1]
  rw [pay3]
  obtain ⟨e00, e01, e10, e11, e20, e21, e30, e40, e41⟩ := idx3 t
  funext j
  show Cert.Spec.combReluArr (M := 5000) (K := 128) (iblk3 V c 0 t) (iblk3 V c 1 t) (iblk3 V c 2 t) (iblk3 V c 3 t) zeroWord j
    = Cert.Spec.combReluArr (M := 50000) (K := 128) (V c main_v60) (V c main_v48) (V c main_v17) (V c main_arg6) zeroWord
        (((cfg3.win 4).blk t).view.emb j)
  unfold Cert.Spec.combReluArr Cert.Spec.combArr
  have h0 : iblk3 V c 0 t j = V c main_v60 (((cfg3.win 4).blk t).view.emb j) := by
    show V c main_v60 (((cfg3.win 0).blk t).view.emb j) = _
    refine congrArg (V c main_v60) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : iblk3 V c 1 t j = V c main_v48 (((cfg3.win 4).blk t).view.emb j) := by
    show V c main_v48 (((cfg3.win 1).blk t).view.emb j) = _
    refine congrArg (V c main_v48) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : iblk3 V c 2 t (ix2 (j 0) (0 : Fin 1)) = V c main_v17 (ix2 ((((cfg3.win 4).blk t).view.emb j) 0) (0 : Fin 1)) := by
    show V c main_v17 (((cfg3.win 2).blk t).view.emb (ix2 (j 0) (0 : Fin 1))) = _
    refine congrArg (V c main_v17) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : iblk3 V c 3 t (ix1 (j 1)) = V c main_arg6 (ix1 ((((cfg3.win 4).blk t).view.emb j) 1)) := by
    show V c main_arg6 (((cfg3.win 3).blk t).view.emb (ix1 (j 1))) = _
    refine congrArg (V c main_arg6) (funext fun a => Fin.ext ?_)
    match a with
    | ⟨0, _⟩ => show win3_3.index t (0 : Fin 1) * 128 + 1 * (j 1).val = win3_4.index t (1 : Fin 2) * 128 + 1 * (j 1).val; omega
  rw [h0, h1, h2, h3]

/-- Membership in point `t`'s output block of the second layer, coordinate by coordinate. -/
theorem mem_blk3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v61).slice (win3_4.rect t)).set ↔ _
  rw [View.set_slice_whole, Rect.mem_set_unit]
  exact Iff.rfl

/-- The second layer's output array: the closing step with the positive part, over the whole input arrays. -/
theorem final3 (c : Dev nD) : (dat3 V c).arrAt 4 cfg3.N
    = Cert.Spec.combReluArr (M := 50000) (K := 128) (V c main_v60) (V c main_v48) (V c main_v17) (V c main_arg6) zeroWord := by
  refine (dat3 V c).arrAt_eq_of_cover 4 _ (fun t _ => flushed3 V c t) fun i => ?_
  have hi0 : (i 0).val < 50000 := (i 0).isLt
  have hi1 : (i 1).val < 128 := (i 1).isLt
  have hN : cfg3.N = 10 := N_3
  refine ⟨⟨(i 0).val / 5000, by omega⟩, flush3_4 _, ?_⟩
  rw [mem_blk3]
  obtain ⟨-, -, -, -, -, -, -, e40, e41⟩ := idx3 ⟨(i 0).val / 5000, by omega⟩
  intro a
  match a with
  | ⟨0, _⟩ => show win3_4.index _ (0 : Fin 2) * 5000 ≤ (i 0).val ∧ (i 0).val < win3_4.index _ (0 : Fin 2) * 5000 + 5000; rw [e40]; dsimp only; omega
  | ⟨1, _⟩ => show win3_4.index _ (1 : Fin 2) * 128 ≤ (i 1).val ∧ (i 1).val < win3_4.index _ (1 : Fin 2) * 128 + 128; rw [e41]; omega

/-! ## Region 5: the last layer's closing step -/

/-- The windows are the arrays named in the statement. -/
example : Pipeline.arrRef spec5 0 = main_v74 ∧ Pipeline.arrRef spec5 1 = main_v62 ∧ Pipeline.arrRef spec5 2 = main_v17
    ∧ Pipeline.arrRef spec5 3 = main_arg8 ∧ Pipeline.arrRef spec5 4 = main_v75 := ⟨rfl, rfl, rfl, rfl, rfl⟩

/-- The block indices of the last layer's windows, decided over the ten points. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- What point `t` of the last layer writes back is block `t` of the closing step of the whole input arrays. -/
theorem flushed5 (c : Dev nD) (t : Fin cfg5.N) :
    (dat5 V c).flushed 4 t = ((cfg5.win 4).blk t).view.read (Elt Ideal)
      (Cert.Spec.combArr (M := 50000) (K := 64) (V c main_v74) (V c main_v62) (V c main_v17) (V c main_arg8)) := by
  show (cfg5.win 4).cut (grid5.coords t) ((dat5 V c).after 4 t) = _
  rw [after5_4]
  unfold out5_4
  rw [View.canon_unit_zero zero2]
  simp only [View.ld_unit_zero (S := S5000x64) zero2, View.ld_unit_zero (S := S5000x1) zero2, View.ld_unit_zero (S := S64) zero1]
  rw [pay5]
  obtain ⟨e00, e01, e10, e11, e20, e21, e30, e40, e41⟩ := idx5 t
  funext j
  show Cert.Spec.combArr (M := 5000) (K := 64) (iblk5 V c 0 t) (iblk5 V c 1 t) (iblk5 V c 2 t) (iblk5 V c 3 t) j
    = Cert.Spec.combArr (M := 50000) (K := 64) (V c main_v74) (V c main_v62) (V c main_v17) (V c main_arg8)
        (((cfg5.win 4).blk t).view.emb j)
  unfold Cert.Spec.combArr
  have h0 : iblk5 V c 0 t j = V c main_v74 (((cfg5.win 4).blk t).view.emb j) := by
    show V c main_v74 (((cfg5.win 0).blk t).view.emb j) = _
    refine congrArg (V c main_v74) (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  have h1 : iblk5 V c 1 t j = V c main_v62 (((cfg5.win 4).blk t).view.emb j) := by
    show V c main_v62 (((cfg5.win 1).blk t).view.emb j) = _
    refine congrArg (V c main_v62) (funext fun a => Fin.ext ?_)
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 64 + 1 * (j 1).val = win5_4.index t (1 : Fin 2) * 64 + 1 * (j 1).val; omega
  have h2 : iblk5 V c 2 t (ix2 (j 0) (0 : Fin 1)) = V c main_v17 (ix2 ((((cfg5.win 4).blk t).view.emb j) 0) (0 : Fin 1)) := by
    show V c main_v17 (((cfg5.win 2).blk t).view.emb (ix2 (j 0) (0 : Fin 1))) = _
    refine congrArg (V c main_v17) (funext fun a => Fin.ext ?_)
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  have h3 : iblk5 V c 3 t (ix1 (j 1)) = V c main_arg8 (ix1 ((((cfg5.win 4).blk t).view.emb j) 1)) := by
    show V c main_arg8 (((cfg5.win 3).blk t).view.emb (ix1 (j 1))) = _
    refine congrArg (V c main_arg8) (funext fun a => Fin.ext ?_)
    match a with
    | ⟨0, _⟩ => show win5_3.index t (0 : Fin 1) * 64 + 1 * (j 1).val = win5_4.index t (1 : Fin 2) * 64 + 1 * (j 1).val; omega
  rw [h0, h1, h2, h3]

/-- Membership in point `t`'s output block of the last layer, coordinate by coordinate. -/
theorem mem_blk5 (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v75).slice (win5_4.rect t)).set ↔ _
  rw [View.set_slice_whole, Rect.mem_set_unit]
  exact Iff.rfl

/-- The last layer's output array: the closing step, without positive part, over the whole input arrays. -/
theorem final5 (c : Dev nD) : (dat5 V c).arrAt 4 cfg5.N
    = Cert.Spec.combArr (M := 50000) (K := 64) (V c main_v74) (V c main_v62) (V c main_v17) (V c main_arg8) := by
  refine (dat5 V c).arrAt_eq_of_cover 4 _ (fun t _ => flushed5 V c t) fun i => ?_
  have hi0 : (i 0).val < 50000 := (i 0).isLt
  have hi1 : (i 1).val < 64 := (i 1).isLt
  have hN : cfg5.N = 10 := N_5
  refine ⟨⟨(i 0).val / 5000, by omega⟩, flush5_4 _, ?_⟩
  rw [mem_blk5]
  obtain ⟨-, -, -, -, -, -, -, e40, e41⟩ := idx5 ⟨(i 0).val / 5000, by omega⟩
  intro a
  match a with
  | ⟨0, _⟩ => show win5_4.index _ (0 : Fin 2) * 5000 ≤ (i 0).val ∧ (i 0).val < win5_4.index _ (0 : Fin 2) * 5000 + 5000; rw [e40]; dsimp only; omega
  | ⟨1, _⟩ => show win5_4.index _ (1 : Fin 2) * 64 ≤ (i 1).val ∧ (i 1).val < win5_4.index _ (1 : Fin 2) * 64 + 64; rw [e41]; omega

end Cert.KernelIdeal.Regions

end
-- ==== Proof.KernelPool.lean ====
/-
  The value of the pooling region: what its two result arrays end holding, as whole-array functions of the feature
  array and the label array, over the extended reals.

  The region walks the 50000 nodes in ten blocks of 5000 rows. At each block it forms the one-hot matrix of the
  block's labels against the 64 graph numbers (entry `(r, g)` is 1 when row `r`'s label, a 32-bit word read as a
  signed integer, is `g`, else 0), adds to a 64 × 64 accumulator the product of that matrix, transposed, with the
  block's features, and adds to a 1 × 64 accumulator the matrix's column sums; the first block starts both
  accumulators from zero, and both are written back once, after the last block.

  So after block `n` entry `(g, d)` of the first accumulator is the sum, over the first `5000 * (n + 1)` nodes
  labelled `g`, of their feature `d`, and entry `(0, g)` of the second the number of those nodes — an induction on
  the block, each step a sum over a range split at `5000 * (n + 1)`. After the tenth block the range is every node:
  the pooled sums and the pooled counts of the specification.

  In order: the one-hot entry as a number; the product contracting the row axis of both operands, and the column
  sums, read at an index; what each of the two control cases leaves in the accumulators; a block's rows as rows of
  the arrays; the induction; the last block; the result arrays.
-/
import proofs.«420736_j32487132627312_1_alg».proof.Proof.Gen.KernelIdeal.Frame
import proofs.«420736_j32487132627312_1_alg».proof.Proof.Spec
import Idealize.ShloMosaic.Lib.ValueIdx
import Idealize.ShloMosaic.Lib.Pipeline.Value
import Idealize.ShloMosaic.PureOps.Ideal.Laws
import Idealize.ShloMosaic.Lib.Tactic
import Mathlib.Data.Fintype.BigOperators
import Mathlib.Algebra.BigOperators.Group.Finset.Basic

set_option maxRecDepth 16384
noncomputable section
namespace Cert.KernelIdeal.Regions
open Idealize.ShloMosaic Idealize.ShloMosaic.ValueIdx Idealize.ShloMosaic.TcCoe
open Idealize.ShloMosaic.Pipeline (Dat Cfg Window)
open Cert.KernelIdeal Cert.KernelIdeal.Gen

variable (V : (c : Dev nD) → (b : Ref sig .tc) → Buf (Elt Ideal) ((c : Thread nD τ).loc b))

/-! The lemmas of the pooling region, under their own namespace; the two closing theorems follow it. -/
namespace Pool

theorem hz2 : (![0, 0] : Fin 2 → Nat) = fun _ => 0 := funext fun a => by fin_cases a <;> rfl

/-- One entry of the one-hot matrix as a number: a 32-bit word compared with the word of a column number below 64,
    the bit widened and converted, is 1 when the word read as a signed integer is that number and 0 otherwise. -/
theorem hot_scalar (x : BitVec 32) (g : Fin 64) :
    FloatOps.sitofp (F := Ideal) .f32 ((IntOp.cmpi .eq x (BitVec.ofNat 32 g.val)).setWidth 32)
      = if x.toInt = (g.val : ℤ) then (1 : EReal) else 0 := by
  have hg : g.val < 64 := g.isLt
  have hgi : (BitVec.ofNat 32 g.val).toInt = (g.val : ℤ) := by
    rw [BitVec.toInt_eq_toNat_cond, BitVec.toNat_ofNat]
    have : g.val % 2 ^ 32 = g.val := Nat.mod_eq_of_lt (by omega)
    rw [this]
    split <;> omega
  by_cases h : x = BitVec.ofNat 32 g.val
  · subst h
    rw [if_pos hgi]
    show (((IntOp.cmpi .eq (BitVec.ofNat 32 g.val) (BitVec.ofNat 32 g.val)).setWidth 32).toInt : ℝ) = ((1 : ℝ) : EReal)
    have : IntOp.cmpi .eq (BitVec.ofNat 32 g.val) (BitVec.ofNat 32 g.val) = 1#1 := by
      simp [IntOp.cmpi]
    rw [this]
    norm_num
  · have hne : ¬ x.toInt = (g.val : ℤ) := fun e => h (BitVec.eq_of_toInt_eq (e.trans hgi.symm))
    rw [if_neg hne]
    show (((IntOp.cmpi .eq x (BitVec.ofNat 32 g.val)).setWidth 32).toInt : ℝ) = ((0 : ℝ) : EReal)
    have : IntOp.cmpi .eq x (BitVec.ofNat 32 g.val) = 0#1 := by
      show BitVec.ofBool (x == BitVec.ofNat 32 g.val) = 0#1
      rw [beq_eq_false_iff_ne.mpr h]
      rfl
    rw [this]
    norm_num

/-- The one-hot matrix of a label block at row `r`, column `g`. -/
theorem pay3_apply (x1 : Vec Ideal S5000x1 .i32) (r : Fin 5000) (g : Fin 64) :
    k6_pay3 (F := Ideal) x1 (ix2 r g) = if (x1 (ix2 r (0 : Fin 1))).toInt = (g.val : ℤ) then (1 : EReal) else 0 := by
  have hb : broadcastTo S5000x64 (shapeCast S5000x1 x1 shapeCasts_S5000x1_S5000x1) broadcasts_S5000x1_S5000x64 (ix2 r g)
      = x1 (ix2 r (0 : Fin 1)) := by
    rw [shapeCast_self]
    exact broadcastTo_apply x1 broadcasts_S5000x1_S5000x64 (ix2 r g) (ix2 r (0 : Fin 1)) (fun a => by
      match a with
      | ⟨0, _⟩ => rfl
      | ⟨1, _⟩ => rfl)
  have hi : iota .tc S5000x64 32 [1] iota_S5000x64_d1_w32 (ix2 r g) = BitVec.ofNat 32 g.val :=
    iota_single_apply .tc S5000x64 32 1 iota_S5000x64_d1_w32 (ix2 r g)
  refine Eq.trans ?_ (hot_scalar (x1 (ix2 r (0 : Fin 1))) g)
  show FloatOps.sitofp (F := Ideal) .f32 ((IntOp.cmpi .eq (broadcastTo S5000x64 (shapeCast S5000x1 x1 shapeCasts_S5000x1_S5000x1) broadcasts_S5000x1_S5000x64 (ix2 r g)) (iota .tc S5000x64 32 [1] iota_S5000x64_d1_w32 (ix2 r g))).setWidth 32) = _
  rw [hb, hi]

/-- The dimension numbers of the pool's product: axis 0 of both operands contracted, no batch axis. -/
abbrev poolDot : DotDims S5000x64 S5000x64 S64x64 := dot_S5000x64_S5000x64_S64x64_0_0_1_1_n_n

/-- The left operand's index at result `j` and contraction coordinate `k` is `(k, j 0)`. -/
theorem pool_lhsIdx (j : S64x64.Idx) (k : Fin 5000) :
    poolDot.lhsIdx j ((contrEquiv1 poolDot 5000 rfl rfl).symm k) = ix2 k (j 0) := by
  have hk := contrEquiv1_symm_val poolDot 5000 rfl rfl k
  funext a
  apply Fin.ext
  match a with
  | ⟨0, _⟩ => exact (poolDot.lhsIdx_val_of_single (cl := 0) rfl j _).trans hk
  | ⟨1, _⟩ => rfl

/-- The right operand's index at result `j` and contraction coordinate `k` is `(k, j 1)`. -/
theorem pool_rhsIdx (j : S64x64.Idx) (k : Fin 5000) :
    poolDot.rhsIdx j ((contrEquiv1 poolDot 5000 rfl rfl).symm k) = ix2 k (j 1) := by
  have hk := contrEquiv1_symm_val poolDot 5000 rfl rfl k
  funext a
  apply Fin.ext
  match a with
  | ⟨0, _⟩ => exact (poolDot.rhsIdx_val_of_single (cr := 0) rfl j _).trans hk
  | ⟨1, _⟩ => rfl

/-- The product into the zero accumulator, at an index: the sum over the 5000 rows of the products of the two
    operands' entries in that row. -/
theorem pool_matmul_apply {φ₁ φ₂ : FTy} (l : FVec Ideal S5000x64 φ₁) (r : FVec Ideal S5000x64 φ₂) (g d : Fin 64) :
    FloatOps.matmul poolDot none l r (constant S64x64 .f32 0x00000000#32) (ix2 g d)
      = ∑ k : Fin 5000, l (ix2 k g) * r (ix2 k d) := by
  rw [Ideal.matmul_constant_zero_apply, ← Equiv.sum_comp (contrEquiv1 poolDot 5000 rfl rfl).symm]
  refine Finset.sum_congr rfl fun k _ => ?_
  rw [pool_lhsIdx, pool_rhsIdx]
  rfl

/-- A one-or-zero factor selects its cofactor. -/
theorem ite_one_zero_mul (p : Prop) [Decidable p] (y : EReal) : (if p then (1 : EReal) else 0) * y = if p then y else 0 := by
  split
  · exact one_mul y
  · exact zero_mul y

/-- Output 2's payload at `(g, d)`: the accumulator there plus the sum, over the block's rows labelled `g`, of their feature `d`. -/
theorem pay4_apply (x0 : Vec Ideal S5000x64 .f32) (x1 : Vec Ideal S5000x1 .i32) (acc : Vec Ideal S64x64 .f32) (g d : Fin 64) :
    k6_pay4 (F := Ideal) x0 x1 acc (ix2 g d)
      = acc (ix2 g d) + ∑ r : Fin 5000, (if (x1 (ix2 r (0 : Fin 1))).toInt = (g.val : ℤ) then x0 (ix2 r d) else 0) := by
  have hm := pool_matmul_apply (φ₁ := .bf16) (φ₂ := .bf16) (truncf .bf16 (k6_pay3 (F := Ideal) x1) bitsLt_bf16_f32)
    (truncf .bf16 (shapeCast S5000x64 x0 shapeCasts_S5000x64_S5000x64) bitsLt_bf16_f32) g d
  have hs : ∑ k : Fin 5000, (truncf .bf16 (k6_pay3 (F := Ideal) x1) bitsLt_bf16_f32 : FVec Ideal S5000x64 .bf16) (ix2 k g)
        * (truncf .bf16 (shapeCast S5000x64 x0 shapeCasts_S5000x64_S5000x64) bitsLt_bf16_f32 : FVec Ideal S5000x64 .bf16) (ix2 k d)
      = ∑ r : Fin 5000, (if (x1 (ix2 r (0 : Fin 1))).toInt = (g.val : ℤ) then x0 (ix2 r d) else 0) := by
    refine Finset.sum_congr rfl fun k _ => ?_
    rw [shapeCast_self]
    show k6_pay3 (F := Ideal) x1 (ix2 k g) * x0 (ix2 k d) = _
    rw [pay3_apply, ite_one_zero_mul]
  refine Eq.trans ?_ (congrArg (fun z => acc (ix2 g d) + z) (hm.trans hs))
  show (shapeCast S64x64 acc shapeCasts_S64x64_S64x64) (ix2 g d) + _ = _
  rw [shapeCast_self]

/-- Output 3's payload at `(0, g)`: the accumulator there plus the number of the block's rows labelled `g`. -/
theorem pay5_apply (x1 : Vec Ideal S5000x1 .i32) (acc : Vec Ideal S1x64 .f32) (g : Fin 64) :
    k6_pay5 (F := Ideal) x1 acc (ix2 (0 : Fin 1) g)
      = acc (ix2 (0 : Fin 1) g) + ∑ r : Fin 5000, (if (x1 (ix2 r (0 : Fin 1))).toInt = (g.val : ℤ) then (1 : EReal) else 0) := by
  have hr : multiReduction (F := Ideal) .add [0] S64 (k6_pay3 (F := Ideal) x1) 0x00000000#32 reduces_S5000x64_S64 (.inl rfl) rfl (ix1 g)
      = ∑ r : Fin 5000, (if (x1 (ix2 r (0 : Fin 1))).toInt = (g.val : ℤ) then (1 : EReal) else 0) := by
    refine (Ideal.multiReduction_add_single (k6_pay3 (F := Ideal) x1) 0x00000000#32 reduces_S5000x64_S64 (.inl rfl) rfl (ix1 g)).trans ?_
    refine Finset.sum_congr rfl fun k _ => ?_
    exact pay3_apply x1 k g
  have hc : shapeCast S1x64 (multiReduction (F := Ideal) .add [0] S64 (k6_pay3 (F := Ideal) x1) 0x00000000#32 reduces_S5000x64_S64 (.inl rfl) rfl) shapeCasts_S64_S1x64 (ix2 (0 : Fin 1) g)
      = multiReduction (F := Ideal) .add [0] S64 (k6_pay3 (F := Ideal) x1) 0x00000000#32 reduces_S5000x64_S64 (.inl rfl) rfl (ix1 g) :=
    shapeCast_apply _ shapeCasts_S64_S1x64 (ix2 (0 : Fin 1) g) (ix1 g) (by
      rw [Shape.rowMajor_val_one, Shape.rowMajor_val_two]
      show g.val = 0 * 64 + g.val
      omega)
  refine Eq.trans ?_ (congrArg (fun z => acc (ix2 (0 : Fin 1) g) + z) (hc.trans hr))
  show (shapeCast S1x64 acc shapeCasts_S1x64_S1x64) (ix2 (0 : Fin 1) g) + _ = _
  rw [shapeCast_self]

/-! ## What each control case leaves in the two outputs, as the payloads of the loaded blocks -/
section Pieces
variable {F : FTy → Type} [FloatOps F]

/-- After a point other than the first, output 2 holds its previous contents plus the block's product. -/
theorem out6_B_2_eq (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (a4 : Memref sig .tc .vmem S1x64 .f32) (h4 : a4.IsWhole) (hc : ¬cond6_0 i)
    (x0 : Vec F S5000x64 .f32) (x1 : Vec F S5000x1 .i32) (xo2 : Vec F S64x64 .f32) (xo3 : Vec F S1x64 .f32) :
    out6_B_2 c i a1 h1 a2 h2 a3 h3 a4 h4 hc x0 x1 xo2 xo3 = k6_pay4 x0 x1 xo2 := by
  unfold out6_B_2
  rw [View.read_writes_eq_canon _ _ _ (cover6_B_2 c i a1 h1 a2 h2 a3 h3 a4 h4 hc x0 x1 xo2 xo3)]
  unfold kernelRun6_B
  dsimp only
  sl_unfold_words
  rw [View.canon_unit_zero hz2]
  simp only [View.readAt_eq_ld, h1.read_unread, h2.read_unread, h3.read_unread, h4.read_unread,
    View.ld_unit_zero (S := S5000x64) hz2, View.ld_unit_zero (S := S5000x1) hz2, View.ld_unit_zero (S := S64x64) hz2,
    View.ld_unit_zero (S := S1x64) hz2]

/-- After a point other than the first, output 3 holds its previous contents plus the block's column sums. -/
theorem out6_B_3_eq (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (a4 : Memref sig .tc .vmem S1x64 .f32) (h4 : a4.IsWhole) (hc : ¬cond6_0 i)
    (x0 : Vec F S5000x64 .f32) (x1 : Vec F S5000x1 .i32) (xo2 : Vec F S64x64 .f32) (xo3 : Vec F S1x64 .f32) :
    out6_B_3 c i a1 h1 a2 h2 a3 h3 a4 h4 hc x0 x1 xo2 xo3 = k6_pay5 x1 xo3 := by
  unfold out6_B_3
  rw [View.read_writes_eq_canon _ _ _ (cover6_B_3 c i a1 h1 a2 h2 a3 h3 a4 h4 hc x0 x1 xo2 xo3)]
  unfold kernelRun6_B
  dsimp only
  sl_unfold_words
  rw [View.canon_unit_zero hz2]
  simp only [View.readAt_eq_ld, h1.read_unread, h2.read_unread, h3.read_unread, h4.read_unread,
    View.ld_unit_zero (S := S5000x64) hz2, View.ld_unit_zero (S := S5000x1) hz2, View.ld_unit_zero (S := S64x64) hz2,
    View.ld_unit_zero (S := S1x64) hz2]

/-- After the first point, output 2 holds the zero block plus the block's product. -/
theorem out6_A_2_eq (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (a4 : Memref sig .tc .vmem S1x64 .f32) (h4 : a4.IsWhole) (hc : cond6_0 i)
    (x0 : Vec F S5000x64 .f32) (x1 : Vec F S5000x1 .i32) :
    out6_A_2 c i a1 h1 a2 h2 a3 h3 a4 h4 hc x0 x1 = k6_pay4 x0 x1 (k6_pay1 (F := F)) := by
  unfold out6_A_2
  rw [View.read_writes_eq_canon _ _ _ (cover6_A_2 c i a1 h1 a2 h2 a3 h3 a4 h4 hc x0 x1)]
  unfold kernelRun6_A
  dsimp only
  sl_unfold_words
  rw [View.canon_cons_unit_zero (S := S64x64) hz2, View.readCov_unit_zero (S := S64x64) _ hz2]
  simp only [View.readAt_eq_ld, h1.read_unread, h2.read_unread, h3.read_unread, h4.read_unread,
    View.ld_unit_zero (S := S5000x64) hz2, View.ld_unit_zero (S := S5000x1) hz2, View.ld_unit_zero (S := S64x64) hz2,
    View.ld_unit_zero (S := S1x64) hz2]

/-- After the first point, output 3 holds the zero row plus the block's column sums. -/
theorem out6_A_3_eq (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (a4 : Memref sig .tc .vmem S1x64 .f32) (h4 : a4.IsWhole) (hc : cond6_0 i)
    (x0 : Vec F S5000x64 .f32) (x1 : Vec F S5000x1 .i32) :
    out6_A_3 c i a1 h1 a2 h2 a3 h3 a4 h4 hc x0 x1 = k6_pay5 x1 (k6_pay2 (F := F)) := by
  unfold out6_A_3
  rw [View.read_writes_eq_canon _ _ _ (cover6_A_3 c i a1 h1 a2 h2 a3 h3 a4 h4 hc x0 x1)]
  unfold kernelRun6_A
  dsimp only
  sl_unfold_words
  rw [View.canon_cons_unit_zero (S := S1x64) hz2, View.readCov_unit_zero (S := S1x64) _ hz2]
  simp only [View.readAt_eq_ld, h1.read_unread, h2.read_unread, h3.read_unread, h4.read_unread,
    View.ld_unit_zero (S := S5000x64) hz2, View.ld_unit_zero (S := S5000x1) hz2, View.ld_unit_zero (S := S64x64) hz2,
    View.ld_unit_zero (S := S1x64) hz2]

end Pieces

/-! ## The running sums: after point `n` the outputs hold the sums over the first `5000 * (n + 1)` rows -/

/-- Row `k`'s contribution to entry `(g, d)` of the sums: its feature `d` when it is labelled `g`; a number past the
    array's rows contributes nothing. -/
def sumTerm (feat : Vec Ideal S50000x64 .f32) (lab : Vec Ideal S50000x1 .i32) (g d : Fin 64) (k : ℕ) : EReal :=
  if h : k < 50000 then (if (lab (ix2 ⟨k, h⟩ (0 : Fin 1))).toInt = (g.val : ℤ) then feat (ix2 ⟨k, h⟩ d) else 0) else 0

/-- Row `k`'s contribution to the count of graph `g`: one when it is labelled `g`. -/
def cntTerm (lab : Vec Ideal S50000x1 .i32) (g : Fin 64) (k : ℕ) : EReal :=
  if h : k < 50000 then (if (lab (ix2 ⟨k, h⟩ (0 : Fin 1))).toInt = (g.val : ℤ) then (1 : EReal) else 0) else 0

/-- The feature array and the label array as the region finds them, and their blocks at a point. -/
abbrev featArr (c : Dev nD) : Vec Ideal S50000x64 .f32 := V c main_v75
abbrev labArr (c : Dev nD) : Vec Ideal S50000x1 .i32 := V c main_v76
abbrev featBlk (c : Dev nD) (t : Fin cfg6.N) : Vec Ideal S5000x64 .f32 := iblk6 V c 0 t
abbrev labBlk (c : Dev nD) (t : Fin cfg6.N) : Vec Ideal S5000x1 .i32 := iblk6 V c 1 t

/-- The windows' block indices: the inputs walk down the rows, the outputs stay on their one block. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- Row `r` of the feature block at point `t` is row `5000 * t + r` of the array. -/
theorem featBlk_apply (c : Dev nD) (t : Fin cfg6.N) (r : Fin 5000) (d : Fin 64) (h : 5000 * t.val + r.val < 50000) :
    featBlk V c t (ix2 r d) = featArr V c (ix2 ⟨5000 * t.val + r.val, h⟩ d) := by
  obtain ⟨e0, e1, -⟩ := idx6 t
  show V c main_v75 (((cfg6.win 0).blk t).view.emb (ix2 r d)) = _
  refine congrArg (V c main_v75) (funext fun a => Fin.ext ?_)
  match a with
  | ⟨0, _⟩ => show win6_0.index t (0 : Fin 2) * 5000 + 1 * r.val = 5000 * t.val + r.val; omega
  | ⟨1, _⟩ => show win6_0.index t (1 : Fin 2) * 64 + 1 * d.val = d.val; omega

/-- Row `r` of the label block at point `t` is row `5000 * t + r` of the array. -/
theorem labBlk_apply (c : Dev nD) (t : Fin cfg6.N) (r : Fin 5000) (h : 5000 * t.val + r.val < 50000) :
    labBlk V c t (ix2 r (0 : Fin 1)) = labArr V c (ix2 ⟨5000 * t.val + r.val, h⟩ (0 : Fin 1)) := by
  obtain ⟨-, -, e2, e3, -⟩ := idx6 t
  show V c main_v76 (((cfg6.win 1).blk t).view.emb (ix2 r (0 : Fin 1))) = _
  refine congrArg (V c main_v76) (funext fun a => Fin.ext ?_)
  match a with
  | ⟨0, _⟩ => show win6_1.index t (0 : Fin 2) * 5000 + 1 * r.val = 5000 * t.val + r.val; omega
  | ⟨1, _⟩ => show win6_1.index t (1 : Fin 2) * 1 + 1 * 0 = 0; omega

/-- The block's contribution to the sums is that of the array's rows `5000 * t … 5000 * t + 4999`. -/
theorem block_sum (c : Dev nD) (t : Fin cfg6.N) (g d : Fin 64) :
    ∑ r : Fin 5000, (if (labBlk V c t (ix2 r (0 : Fin 1))).toInt = (g.val : ℤ) then featBlk V c t (ix2 r d) else 0)
      = ∑ k ∈ Finset.range 5000, sumTerm (featArr V c) (labArr V c) g d (5000 * t.val + k) := by
  have hN : t.val < 10 := lt_of_lt_of_eq t.isLt N_6
  rw [Finset.sum_fin_eq_sum_range]
  refine Finset.sum_congr rfl fun k hk => ?_
  have hk' : k < 5000 := Finset.mem_range.mp hk
  have hlt : 5000 * t.val + k < 50000 := by omega
  rw [dif_pos hk']
  unfold sumTerm
  rw [dif_pos hlt, labBlk_apply V c t ⟨k, hk'⟩ hlt, featBlk_apply V c t ⟨k, hk'⟩ d hlt]

/-- The block's contribution to the counts is that of the same rows. -/
theorem block_cnt (c : Dev nD) (t : Fin cfg6.N) (g : Fin 64) :
    ∑ r : Fin 5000, (if (labBlk V c t (ix2 r (0 : Fin 1))).toInt = (g.val : ℤ) then (1 : EReal) else 0)
      = ∑ k ∈ Finset.range 5000, cntTerm (labArr V c) g (5000 * t.val + k) := by
  have hN : t.val < 10 := lt_of_lt_of_eq t.isLt N_6
  rw [Finset.sum_fin_eq_sum_range]
  refine Finset.sum_congr rfl fun k hk => ?_
  have hk' : k < 5000 := Finset.mem_range.mp hk
  have hlt : 5000 * t.val + k < 50000 := by omega
  rw [dif_pos hk']
  unfold cntTerm
  rw [dif_pos hlt, labBlk_apply V c t ⟨k, hk'⟩ hlt]

/-- The zero block and the zero row the first point stores, at an index. -/
theorem pay1_apply (j : S64x64.Idx) : k6_pay1 (F := Ideal) j = 0 := Ideal.ofBits_zero_f32
theorem pay2_apply (j : S1x64.Idx) : k6_pay2 (F := Ideal) j = 0 := Ideal.ofBits_zero_f32

/-- After point `n`, entry `(g, d)` of output 2 is the sum of the first `5000 * (n + 1)` rows' contributions. -/
theorem sums_inv (c : Dev nD) : ∀ (n : ℕ) (hn : n < cfg6.N) (g d : Fin 64),
    (outsAt6 V c n hn).1 (ix2 g d) = ∑ k ∈ Finset.range (5000 * (n + 1)), sumTerm (featArr V c) (labArr V c) g d k
  | 0, hn, g, d => by
    rw [outsAt6_A V c ⟨0, hn⟩ rfl]
    dsimp only
    refine (congrFun (out6_A_2_eq (F := Ideal) c (grid6.coords ⟨0, hn⟩) (ms6_0 ⟨0, hn⟩) (hs6_0 ⟨0, hn⟩) (ms6_1 ⟨0, hn⟩) (hs6_1 ⟨0, hn⟩)
      (ms6_2 ⟨0, hn⟩) (hs6_2 ⟨0, hn⟩) (ms6_3 ⟨0, hn⟩) (hs6_3 ⟨0, hn⟩) ((hcond6_0 ⟨0, hn⟩).mpr rfl) (featBlk V c ⟨0, hn⟩) (labBlk V c ⟨0, hn⟩)) (ix2 g d)).trans ?_
    rw [pay4_apply, pay1_apply, zero_add, block_sum V c ⟨0, hn⟩ g d]
    refine Finset.sum_congr rfl fun k _ => ?_
    show sumTerm _ _ g d (5000 * 0 + k) = _
    rw [Nat.mul_zero, Nat.zero_add]
  | n + 1, hn, g, d => by
    have hB : ¬(⟨n + 1, hn⟩ : Fin cfg6.N).val % 10 = 0 := by
      have hN : n + 1 < 10 := lt_of_lt_of_eq hn N_6
      dsimp only; omega
    rw [outsAt6_B V c ⟨n + 1, hn⟩ hB]
    dsimp only
    refine (congrFun (out6_B_2_eq (F := Ideal) c (grid6.coords ⟨n + 1, hn⟩) (ms6_0 ⟨n + 1, hn⟩) (hs6_0 ⟨n + 1, hn⟩) (ms6_1 ⟨n + 1, hn⟩) (hs6_1 ⟨n + 1, hn⟩)
      (ms6_2 ⟨n + 1, hn⟩) (hs6_2 ⟨n + 1, hn⟩) (ms6_3 ⟨n + 1, hn⟩) (hs6_3 ⟨n + 1, hn⟩) (fun h => hB ((hcond6_0 ⟨n + 1, hn⟩).mp h))
      (featBlk V c ⟨n + 1, hn⟩) (labBlk V c ⟨n + 1, hn⟩)
      (outsAt6 V c (n + 1 - 1) (Nat.lt_of_le_of_lt (Nat.sub_le _ _) hn)).1 (outsAt6 V c (n + 1 - 1) (Nat.lt_of_le_of_lt (Nat.sub_le _ _) hn)).2) (ix2 g d)).trans ?_
    rw [pay4_apply, block_sum V c ⟨n + 1, hn⟩ g d]
    show (outsAt6 V c n _).1 (ix2 g d) + _ = _
    rw [sums_inv c n (Nat.lt_of_succ_lt hn) g d, show 5000 * (n + 1 + 1) = 5000 * (n + 1) + 5000 from by ring, Finset.sum_range_add]

/-- After point `n`, entry `(0, g)` of output 3 is the sum of the first `5000 * (n + 1)` rows' contributions to the count. -/
theorem cnts_inv (c : Dev nD) : ∀ (n : ℕ) (hn : n < cfg6.N) (g : Fin 64),
    (outsAt6 V c n hn).2 (ix2 (0 : Fin 1) g) = ∑ k ∈ Finset.range (5000 * (n + 1)), cntTerm (labArr V c) g k
  | 0, hn, g => by
    rw [outsAt6_A V c ⟨0, hn⟩ rfl]
    dsimp only
    refine (congrFun (out6_A_3_eq (F := Ideal) c (grid6.coords ⟨0, hn⟩) (ms6_0 ⟨0, hn⟩) (hs6_0 ⟨0, hn⟩) (ms6_1 ⟨0, hn⟩) (hs6_1 ⟨0, hn⟩)
      (ms6_2 ⟨0, hn⟩) (hs6_2 ⟨0, hn⟩) (ms6_3 ⟨0, hn⟩) (hs6_3 ⟨0, hn⟩) ((hcond6_0 ⟨0, hn⟩).mpr rfl) (featBlk V c ⟨0, hn⟩) (labBlk V c ⟨0, hn⟩)) (ix2 (0 : Fin 1) g)).trans ?_
    rw [pay5_apply, pay2_apply, zero_add, block_cnt V c ⟨0, hn⟩ g]
    refine Finset.sum_congr rfl fun k _ => ?_
    show cntTerm _ g (5000 * 0 + k) = _
    rw [Nat.mul_zero, Nat.zero_add]
  | n + 1, hn, g => by
    have hB : ¬(⟨n + 1, hn⟩ : Fin cfg6.N).val % 10 = 0 := by
      have hN : n + 1 < 10 := lt_of_lt_of_eq hn N_6
      dsimp only; omega
    rw [outsAt6_B V c ⟨n + 1, hn⟩ hB]
    dsimp only
    refine (congrFun (out6_B_3_eq (F := Ideal) c (grid6.coords ⟨n + 1, hn⟩) (ms6_0 ⟨n + 1, hn⟩) (hs6_0 ⟨n + 1, hn⟩) (ms6_1 ⟨n + 1, hn⟩) (hs6_1 ⟨n + 1, hn⟩)
      (ms6_2 ⟨n + 1, hn⟩) (hs6_2 ⟨n + 1, hn⟩) (ms6_3 ⟨n + 1, hn⟩) (hs6_3 ⟨n + 1, hn⟩) (fun h => hB ((hcond6_0 ⟨n + 1, hn⟩).mp h))
      (featBlk V c ⟨n + 1, hn⟩) (labBlk V c ⟨n + 1, hn⟩)
      (outsAt6 V c (n + 1 - 1) (Nat.lt_of_le_of_lt (Nat.sub_le _ _) hn)).1 (outsAt6 V c (n + 1 - 1) (Nat.lt_of_le_of_lt (Nat.sub_le _ _) hn)).2) (ix2 (0 : Fin 1) g)).trans ?_
    rw [pay5_apply, block_cnt V c ⟨n + 1, hn⟩ g]
    show (outsAt6 V c n _).2 (ix2 (0 : Fin 1) g) + _ = _
    rw [cnts_inv c n (Nat.lt_of_succ_lt hn) g, show 5000 * (n + 1 + 1) = 5000 * (n + 1) + 5000 from by ring, Finset.sum_range_add]

/-! ## After the last point: all 50000 rows -/

/-- After point 9 output 2 is the sum over every row of the array: Spec's pooled sums. -/
theorem sums_last (c : Dev nD) (hn : 9 < cfg6.N) :
    (outsAt6 V c 9 hn).1 = Cert.Spec.poolSums (N := 50000) (G := 64) (D := 64) (V c main_v75) (V c main_v76) := by
  funext j
  obtain ⟨g, d, rfl⟩ : ∃ (g : Fin 64) (d : Fin 64), j = ix2 g d := ⟨j 0, j 1, eq_ix2 j⟩
  rw [sums_inv V c 9 hn g d]
  unfold Cert.Spec.poolSums
  rw [Finset.sum_fin_eq_sum_range]
  rfl

/-- After point 9 output 3 is the count over every row of the array: Spec's pooled counts. -/
theorem cnts_last (c : Dev nD) (hn : 9 < cfg6.N) :
    (outsAt6 V c 9 hn).2 = Cert.Spec.poolCnts (N := 50000) (G := 64) (V c main_v76) := by
  funext j
  obtain ⟨z, g, rfl⟩ : ∃ (z : Fin 1) (g : Fin 64), j = ix2 z g := ⟨j 0, j 1, eq_ix2 j⟩
  obtain rfl : z = 0 := Subsingleton.elim _ _
  rw [cnts_inv V c 9 hn g]
  unfold Cert.Spec.poolCnts
  rw [Finset.sum_fin_eq_sum_range]
  rfl

/-! ## The result arrays -/

/-- A point that writes output 2 or 3 back is point 9. -/
theorem eq_nine (t : Fin cfg6.N) (h : t.val % 10 = 9) : t.val = 9 := by
  have hN : t.val < 10 := lt_of_lt_of_eq t.isLt N_6
  omega

/-- Output 2's block at any point is the whole array: reading an array through it gives the array back. -/
theorem cut_eq_read6_2 (t : Fin cfg6.N) (G : Vec Ideal S64x64 .f32) :
    (cfg6.win 2).cut (grid6.coords t) G = ((cfg6.win 2).blk t).view.read (Elt Ideal) G := by
  obtain ⟨-, -, -, -, e4, e5, -⟩ := idx6 t
  funext j
  show G j = G (((cfg6.win 2).blk t).view.emb j)
  refine congrArg G (funext fun a => Fin.ext ?_)
  match a with
  | ⟨0, _⟩ => show (j 0).val = win6_2.index t (0 : Fin 2) * 64 + 1 * (j 0).val; omega
  | ⟨1, _⟩ => show (j 1).val = win6_2.index t (1 : Fin 2) * 64 + 1 * (j 1).val; omega

/-- Output 3's block at any point is the whole array. -/
theorem cut_eq_read6_3 (t : Fin cfg6.N) (G : Vec Ideal S1x64 .f32) :
    (cfg6.win 3).cut (grid6.coords t) G = ((cfg6.win 3).blk t).view.read (Elt Ideal) G := by
  obtain ⟨-, -, -, -, -, -, e6, e7⟩ := idx6 t
  funext j
  show G j = G (((cfg6.win 3).blk t).view.emb j)
  refine congrArg G (funext fun a => Fin.ext ?_)
  match a with
  | ⟨0, _⟩ => show (j 0).val = win6_3.index t (0 : Fin 2) * 1 + 1 * (j 0).val; omega
  | ⟨1, _⟩ => show (j 1).val = win6_3.index t (1 : Fin 2) * 64 + 1 * (j 1).val; omega

/-- The one write-back of output 2, at point 9, writes Spec's pooled sums: its block is the whole array. -/
theorem flushed6_2 (c : Dev nD) (t : Fin cfg6.N) (hf : (cfg6.win 2).flush t = true) :
    (dat6 V c).flushed 2 t = ((cfg6.win 2).blk t).view.read (Elt Ideal)
      (Cert.Spec.poolSums (N := 50000) (G := 64) (D := 64) (V c main_v75) (V c main_v76)) := by
  have h9 : t.val = 9 := eq_nine t ((flush6_2 t).mp hf)
  obtain ⟨tv, ht⟩ := t
  dsimp only at h9
  subst h9
  show (cfg6.win 2).cut (grid6.coords ⟨9, ht⟩) ((dat6 V c).after 2 ⟨9, ht⟩) = _
  rw [after6_2]
  show (cfg6.win 2).cut (grid6.coords ⟨9, ht⟩) (outsAt6 V c 9 ht).1 = _
  rw [sums_last V c ht]
  exact cut_eq_read6_2 ⟨9, ht⟩ _

/-- The one write-back of output 3, at point 9, writes Spec's pooled counts: its block is the whole array. -/
theorem flushed6_3 (c : Dev nD) (t : Fin cfg6.N) (hf : (cfg6.win 3).flush t = true) :
    (dat6 V c).flushed 3 t = ((cfg6.win 3).blk t).view.read (Elt Ideal)
      (Cert.Spec.poolCnts (N := 50000) (G := 64) (V c main_v76)) := by
  have h9 : t.val = 9 := eq_nine t ((flush6_3 t).mp hf)
  obtain ⟨tv, ht⟩ := t
  dsimp only at h9
  subst h9
  show (cfg6.win 3).cut (grid6.coords ⟨9, ht⟩) ((dat6 V c).after 3 ⟨9, ht⟩) = _
  rw [after6_3]
  show (cfg6.win 3).cut (grid6.coords ⟨9, ht⟩) (outsAt6 V c 9 ht).2 = _
  rw [cnts_last V c ht]
  exact cut_eq_read6_3 ⟨9, ht⟩ _

/-- Output 2's block at a point, as a set of array indices. -/
theorem mem_blk6_2 (t : Fin cfg6.N) (i : S64x64.Idx) :
    i ∈ ((cfg6.win 2).blk t).view.set ↔ ∀ a : Fin 2, win6_2.index t a * S64x64.size a ≤ (i a).val ∧ (i a).val < win6_2.index t a * S64x64.size a + S64x64.size a := by
  show i ∈ ((View.whole main_v77_0).slice (win6_2.rect t)).set ↔ _
  rw [View.set_slice_whole, Rect.mem_set_unit]
  exact Iff.rfl

/-- Output 3's block at a point, as a set of array indices. -/
theorem mem_blk6_3 (t : Fin cfg6.N) (i : S1x64.Idx) :
    i ∈ ((cfg6.win 3).blk t).view.set ↔ ∀ a : Fin 2, win6_3.index t a * S1x64.size a ≤ (i a).val ∧ (i a).val < win6_3.index t a * S1x64.size a + S1x64.size a := by
  show i ∈ ((View.whole main_v77_1).slice (win6_3.rect t)).set ↔ _
  rw [View.set_slice_whole, Rect.mem_set_unit]
  exact Iff.rfl

end Pool

open Pool

/-- The pooled sums: the array output 2 is written back to ends holding, at `(g, d)`, the sum over the nodes labelled
    `g` of their feature `d`. -/
theorem final6_2 (c : Dev nD) : (dat6 V c).arrAt 2 cfg6.N = Cert.Spec.poolSums (N := 50000) (G := 64) (D := 64) (V c main_v75) (V c main_v76) := by
  refine (dat6 V c).arrAt_eq_of_cover 2 _ (fun t hf => flushed6_2 V c t hf) fun i => ?_
  have hi0 : (i 0).val < 64 := (i 0).isLt
  have hi1 : (i 1).val < 64 := (i 1).isLt
  have hN : cfg6.N = 10 := N_6
  refine ⟨⟨9, by omega⟩, (flush6_2 _).mpr rfl, ?_⟩
  rw [mem_blk6_2]
  obtain ⟨-, -, -, -, e4, e5, -⟩ := idx6 ⟨9, by omega⟩
  intro a
  match a with
  | ⟨0, _⟩ => show win6_2.index _ (0 : Fin 2) * 64 ≤ (i 0).val ∧ (i 0).val < win6_2.index _ (0 : Fin 2) * 64 + 64; rw [e4]; omega
  | ⟨1, _⟩ => show win6_2.index _ (1 : Fin 2) * 64 ≤ (i 1).val ∧ (i 1).val < win6_2.index _ (1 : Fin 2) * 64 + 64; rw [e5]; omega

/-- The pooled counts: the array output 3 is written back to ends holding, at `(0, g)`, the number of nodes labelled `g`. -/
theorem final6_3 (c : Dev nD) : (dat6 V c).arrAt 3 cfg6.N = Cert.Spec.poolCnts (N := 50000) (G := 64) (V c main_v76) := by
  refine (dat6 V c).arrAt_eq_of_cover 3 _ (fun t hf => flushed6_3 V c t hf) fun i => ?_
  have hi0 : (i 0).val < 1 := (i 0).isLt
  have hi1 : (i 1).val < 64 := (i 1).isLt
  have hN : cfg6.N = 10 := N_6
  refine ⟨⟨9, by omega⟩, (flush6_3 _).mpr rfl, ?_⟩
  rw [mem_blk6_3]
  obtain ⟨-, -, -, -, -, -, e6, e7⟩ := idx6 ⟨9, by omega⟩
  intro a
  match a with
  | ⟨0, _⟩ => show win6_3.index _ (0 : Fin 2) * 1 ≤ (i 0).val ∧ (i 0).val < win6_3.index _ (0 : Fin 2) * 1 + 1; rw [e6]; omega
  | ⟨1, _⟩ => show win6_3.index _ (1 : Fin 2) * 64 ≤ (i 1).val ∧ (i 1).val < win6_3.index _ (1 : Fin 2) * 64 + 64; rw [e7]; omega

end Cert.KernelIdeal.Regions
end
-- ==== Proof.KernelValue.lean ====
/-
  The kernel program's two results as functions of its arguments.

  The program is seven regions among stretches of host operations, and the buffer contents at each boundary are a fold
  from the launch memory. A dense region leaves every row of its input against its weight matrix; a combine region
  leaves the aggregated rows plus the own rows scaled by the self-loop weights plus the bias (the first two capped
  below by zero); the pool region leaves each graph's feature sums and node counts. The host stretches between them
  gather the rows at the edges' sources, scale them by the edge weights and add them into the targets' rows
  (`agg128`, `agg64`), and the last stretch divides the sums by the capped counts (`tail`). Walking the fold back
  from the returned buffers, each buffer a later step reads is what the step that wrote it left, since no step between
  writes it; the degree-derived columns, the edge lists and the arguments are read where the first stretch left them.
-/
import proofs.«420736_j32487132627312_1_alg».proof.Proof.Gen.KernelIdeal.Frame
import proofs.«420736_j32487132627312_1_alg».proof.Proof.Spec
import proofs.«420736_j32487132627312_1_alg».proof.Proof.LibRowOps
import proofs.«420736_j32487132627312_1_alg».proof.Proof.KernelDense0
import proofs.«420736_j32487132627312_1_alg».proof.Proof.KernelDense2
import proofs.«420736_j32487132627312_1_alg».proof.Proof.KernelDense4
import proofs.«420736_j32487132627312_1_alg».proof.Proof.KernelCombine
import proofs.«420736_j32487132627312_1_alg».proof.Proof.KernelPool
import Idealize.ShloMosaic.Lib.StableHlo.Run

set_option maxRecDepth 16384

noncomputable section

namespace Cert.KernelIdeal.Walk

open Idealize.ShloMosaic Idealize.ShloMosaic.ValueIdx Idealize.ShloMosaic.TcCoe Idealize.ShloMosaic.StableHlo
open Idealize.ShloMosaic.Pipeline (Dat Cfg Window)
open Cert.KernelIdeal Cert.KernelIdeal.Gen Cert.KernelIdeal.Regions

/-! ## The host stretches as functions -/

/-- One layer's neighbour aggregation over 128 columns: the rows of `h` at the edges' source nodes (a negative
    index counted from the end), each scaled by its edge's weight, added into the rows of the edges' targets. -/
def agg128 (src dst : IVec S800000 32) (ncol : Vec Ideal S800000x1 .f32) (h : Vec Ideal S50000x128 .f32) : Vec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1 ncol))

/-- The same over 64 columns. -/
def agg64 (src dst : IVec S800000 32) (ncol : Vec Ideal S800000x1 .f32) (h : Vec Ideal S50000x64 .f32) : Vec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x64 ![0, 1] bcast_S800000x1_S800000x64_0_1 ncol))

/-- The last stretch: the sums over the counts, the counts turned into a column, capped below by one and spread along the rows. -/
def tail (sums : Vec Ideal S64x64 .f32) (cnts : Vec Ideal S1x64 .f32) : Vec Ideal S64x64 .f32 :=
  Host.divf (F := Ideal) sums (broadcastInDim S64x64 ![0, 1] bcast_S64x1_S64x64_0_1
    (maximumf (shapeCast S64x1 cnts shapeCasts_S1x64_S64x1)
      (broadcastInDim S64x1 ![] bcast_S_S64x1 (constant (F := Ideal) S_ .f32 0x3F800000#32))))

variable (m : (ℓ : Loc nD τ sig) → Buf (Elt Ideal) ℓ) (ρ : Dev nD → PrngReg) (c : Dev nD)

/-- A buffer that no operation of a host stretch writes keeps its contents over the stretch. -/
macro "keep_host" : tactic => `(tactic| exact StableHlo.after_of_forall_not_mem _ _ (List.forall_iff_forall_mem.mp (by
   simp only [hostOps0, hostOps1, hostOps3, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))))

/-! ## What each host stretch writes -/

set_option maxHeartbeats 8000000 in
theorem W3_v46 : W3 m ρ c (Proc.devRef .tc main_v46) = agg128 (W2 m ρ c (Proc.devRef .tc main_v1)) (W2 m ρ c (Proc.devRef .tc main_v3)) (W2 m ρ c (Proc.devRef .tc main_v33)) (W2 m ρ c (Proc.devRef .tc main_v34)) := by
  show StableHlo.after hostOps1 (W2 m ρ c) (Proc.devRef .tc main_v46) = _
  after_results
  rfl

set_option maxHeartbeats 8000000 in
theorem W6_v60 : W6 m ρ c (Proc.devRef .tc main_v60) = agg128 (W5 m ρ c (Proc.devRef .tc main_v1)) (W5 m ρ c (Proc.devRef .tc main_v3)) (W5 m ρ c (Proc.devRef .tc main_v33)) (W5 m ρ c (Proc.devRef .tc main_v48)) := by
  show StableHlo.after hostOps3 (W5 m ρ c) (Proc.devRef .tc main_v60) = _
  after_results
  rfl

set_option maxHeartbeats 8000000 in
theorem W9_v74 : W9 m ρ c (Proc.devRef .tc main_v74) = agg64 (W8 m ρ c (Proc.devRef .tc main_v1)) (W8 m ρ c (Proc.devRef .tc main_v3)) (W8 m ρ c (Proc.devRef .tc main_v33)) (W8 m ρ c (Proc.devRef .tc main_v62)) := by
  show StableHlo.after hostOps5 (W8 m ρ c) (Proc.devRef .tc main_v74) = _
  after_results
  rfl

theorem W11_v76 : W11 m ρ c (Proc.devRef .tc main_v76) = shapeCast S50000x1 (W10 m ρ c (Proc.devRef .tc main_arg2)) shapeCasts_S50000_S50000x1 := by
  show StableHlo.after hostOps6 (W10 m ρ c) (Proc.devRef .tc main_v76) = _
  after_results
  rfl

set_option maxHeartbeats 8000000 in
theorem W13_v82 : W13 m ρ c (Proc.devRef .tc main_v82) = tail (W12 m ρ c (Proc.devRef .tc main_v77_0)) (W12 m ρ c (Proc.devRef .tc main_v77_1)) := by
  show StableHlo.after hostOps7 (W12 m ρ c) (Proc.devRef .tc main_v82) = _
  after_results
  rfl

/-! ## What each region leaves -/

theorem W2_v34 : W2 m ρ c (Proc.devRef .tc main_v34) = Cert.Lib.projArr (M := 50000) (K := 128) (N := 128) (W1 m ρ c (Proc.devRef .tc main_arg0)) (W1 m ρ c (Proc.devRef .tc main_arg3)) :=
  (W2_arr m ρ c 2).trans (final0 (V1 m ρ) c)

theorem W4_v47 : W4 m ρ c (Proc.devRef .tc main_v47) = Cert.Spec.combReluArr (M := 50000) (K := 128) (W3 m ρ c (Proc.devRef .tc main_v46)) (W3 m ρ c (Proc.devRef .tc main_v34)) (W3 m ρ c (Proc.devRef .tc main_v17)) (W3 m ρ c (Proc.devRef .tc main_arg4)) zeroWord :=
  (W4_arr m ρ c 4).trans (final1 (V3 m ρ) c)

theorem W5_v48 : W5 m ρ c (Proc.devRef .tc main_v48) = Cert.Lib.projArr (M := 50000) (K := 128) (N := 128) (W4 m ρ c (Proc.devRef .tc main_v47)) (W4 m ρ c (Proc.devRef .tc main_arg5)) :=
  (W5_arr m ρ c 2).trans (final2 (V4 m ρ) c)

theorem W7_v61 : W7 m ρ c (Proc.devRef .tc main_v61) = Cert.Spec.combReluArr (M := 50000) (K := 128) (W6 m ρ c (Proc.devRef .tc main_v60)) (W6 m ρ c (Proc.devRef .tc main_v48)) (W6 m ρ c (Proc.devRef .tc main_v17)) (W6 m ρ c (Proc.devRef .tc main_arg6)) zeroWord :=
  (W7_arr m ρ c 4).trans (final3 (V6 m ρ) c)

theorem W8_v62 : W8 m ρ c (Proc.devRef .tc main_v62) = Cert.Lib.projArr (M := 50000) (K := 128) (N := 64) (W7 m ρ c (Proc.devRef .tc main_v61)) (W7 m ρ c (Proc.devRef .tc main_arg7)) :=
  (W8_arr m ρ c 2).trans (final4 (V7 m ρ) c)

theorem W10_v75 : W10 m ρ c (Proc.devRef .tc main_v75) = Cert.Spec.combArr (M := 50000) (K := 64) (W9 m ρ c (Proc.devRef .tc main_v74)) (W9 m ρ c (Proc.devRef .tc main_v62)) (W9 m ρ c (Proc.devRef .tc main_v17)) (W9 m ρ c (Proc.devRef .tc main_arg8)) :=
  (W10_arr m ρ c 4).trans (final5 (V9 m ρ) c)

theorem W12_v77_0 : W12 m ρ c (Proc.devRef .tc main_v77_0) = Cert.Spec.poolSums (N := 50000) (G := 64) (D := 64) (W11 m ρ c (Proc.devRef .tc main_v75)) (W11 m ρ c (Proc.devRef .tc main_v76)) :=
  (W12_arr m ρ c 2).trans (final6_2 (V11 m ρ) c)

theorem W12_v77_1 : W12 m ρ c (Proc.devRef .tc main_v77_1) = Cert.Spec.poolCnts (N := 50000) (G := 64) (W11 m ρ c (Proc.devRef .tc main_v76)) :=
  (W12_arr m ρ c 3).trans (final6_3 (V11 m ρ) c)

/-! ## Buffers read later than they were written: nothing between writes them -/

-- the edge lists and the edge-weight column, where the first stretch left them
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v33 : W2 m ρ c (Proc.devRef .tc main_v33) = W1 m ρ c (Proc.devRef .tc main_v33) := W2_of_ne m ρ c main_v33 (by decide)
theorem W5_v1 : W5 m ρ c (Proc.devRef .tc main_v1) = W1 m ρ c (Proc.devRef .tc main_v1) :=
  (W5_of_ne m ρ c main_v1 (by decide)).trans ((W4_of_ne m ρ c main_v1 (by decide)).trans
    ((show W3 m ρ c (Proc.devRef .tc main_v1) = W2 m ρ c (Proc.devRef .tc main_v1) by keep_host).trans (W2_v1 m ρ c)))
theorem W5_v3 : W5 m ρ c (Proc.devRef .tc main_v3) = W1 m ρ c (Proc.devRef .tc main_v3) :=
  (W5_of_ne m ρ c main_v3 (by decide)).trans ((W4_of_ne m ρ c main_v3 (by decide)).trans
    ((show W3 m ρ c (Proc.devRef .tc main_v3) = W2 m ρ c (Proc.devRef .tc main_v3) by keep_host).trans (W2_v3 m ρ c)))
theorem W5_v33 : W5 m ρ c (Proc.devRef .tc main_v33) = W1 m ρ c (Proc.devRef .tc main_v33) :=
  (W5_of_ne m ρ c main_v33 (by decide)).trans ((W4_of_ne m ρ c main_v33 (by decide)).trans
    ((show W3 m ρ c (Proc.devRef .tc main_v33) = W2 m ρ c (Proc.devRef .tc main_v33) by keep_host).trans (W2_v33 m ρ c)))
theorem W8_v1 : W8 m ρ c (Proc.devRef .tc main_v1) = W1 m ρ c (Proc.devRef .tc main_v1) :=
  (W8_of_ne m ρ c main_v1 (by decide)).trans ((W7_of_ne m ρ c main_v1 (by decide)).trans
    ((show W6 m ρ c (Proc.devRef .tc main_v1) = W5 m ρ c (Proc.devRef .tc main_v1) by keep_host).trans (W5_v1 m ρ c)))
theorem W8_v3 : W8 m ρ c (Proc.devRef .tc main_v3) = W1 m ρ c (Proc.devRef .tc main_v3) :=
  (W8_of_ne m ρ c main_v3 (by decide)).trans ((W7_of_ne m ρ c main_v3 (by decide)).trans
    ((show W6 m ρ c (Proc.devRef .tc main_v3) = W5 m ρ c (Proc.devRef .tc main_v3) by keep_host).trans (W5_v3 m ρ c)))
theorem W8_v33 : W8 m ρ c (Proc.devRef .tc main_v33) = W1 m ρ c (Proc.devRef .tc main_v33) :=
  (W8_of_ne m ρ c main_v33 (by decide)).trans ((W7_of_ne m ρ c main_v33 (by decide)).trans
    ((show W6 m ρ c (Proc.devRef .tc main_v33) = W5 m ρ c (Proc.devRef .tc main_v33) by keep_host).trans (W5_v33 m ρ c)))

-- the self-loop column: an input array of each combine region, which leaves it as entered
theorem W3_v17 : W3 m ρ c (Proc.devRef .tc main_v17) = W1 m ρ c (Proc.devRef .tc main_v17) :=
  (show W3 m ρ c (Proc.devRef .tc main_v17) = W2 m ρ c (Proc.devRef .tc main_v17) by keep_host).trans (W2_of_ne m ρ c main_v17 (by decide))
theorem W6_v17 : W6 m ρ c (Proc.devRef .tc main_v17) = W1 m ρ c (Proc.devRef .tc main_v17) :=
  (show W6 m ρ c (Proc.devRef .tc main_v17) = W5 m ρ c (Proc.devRef .tc main_v17) by keep_host).trans ((W5_of_ne m ρ c main_v17 (by decide)).trans
    (((W4_arr m ρ c 2).trans (((dat1 (V3 m ρ) c).arrAt_in 2 rfl _).trans (A_eq1 (V3 m ρ) c 2))).trans (W3_v17 m ρ c)))
theorem W9_v17 : W9 m ρ c (Proc.devRef .tc main_v17) = W1 m ρ c (Proc.devRef .tc main_v17) :=
  (show W9 m ρ c (Proc.devRef .tc main_v17) = W8 m ρ c (Proc.devRef .tc main_v17) by keep_host).trans ((W8_of_ne m ρ c main_v17 (by decide)).trans
    (((W7_arr m ρ c 2).trans (((dat3 (V6 m ρ) c).arrAt_in 2 rfl _).trans (A_eq3 (V6 m ρ) c 2))).trans (W6_v17 m ρ c)))

-- a dense region's output, read again by the combine region after the aggregation stretch
theorem W3_v34 : W3 m ρ c (Proc.devRef .tc main_v34) = W2 m ρ c (Proc.devRef .tc main_v34) := by keep_host
theorem W6_v48 : W6 m ρ c (Proc.devRef .tc main_v48) = W5 m ρ c (Proc.devRef .tc main_v48) := by keep_host
theorem W9_v62 : W9 m ρ c (Proc.devRef .tc main_v62) = W8 m ρ c (Proc.devRef .tc main_v62) := by keep_host

-- the features: an input array of the pool region, untouched by the last two stretches
theorem W11_v75 : W11 m ρ c (Proc.devRef .tc main_v75) = W10 m ρ c (Proc.devRef .tc main_v75) := by keep_host
theorem W13_v75 : W13 m ρ c (Proc.devRef .tc main_v75) = W10 m ρ c (Proc.devRef .tc main_v75) :=
  (show W13 m ρ c (Proc.devRef .tc main_v75) = W12 m ρ c (Proc.devRef .tc main_v75) by keep_host).trans
    (((W12_arr m ρ c 0).trans (((dat6 (V11 m ρ) c).arrAt_in 0 rfl _).trans (A_eq6 (V11 m ρ) c 0))).trans (W11_v75 m ρ c))

-- the arguments, as launched
theorem W1_arg0 : W1 m ρ c (Proc.devRef .tc main_arg0) = m ((c : Thread nD τ).loc main_arg0) :=
  Eq.trans (b := W0 m ρ c (Proc.devRef .tc main_arg0)) (by keep_host) rfl
theorem W1_arg3 : W1 m ρ c (Proc.devRef .tc main_arg3) = m ((c : Thread nD τ).loc main_arg3) :=
  Eq.trans (b := W0 m ρ c (Proc.devRef .tc main_arg3)) (by keep_host) rfl
theorem W3_arg4 : W3 m ρ c (Proc.devRef .tc main_arg4) = m ((c : Thread nD τ).loc main_arg4) :=
  (show W3 m ρ c (Proc.devRef .tc main_arg4) = W2 m ρ c (Proc.devRef .tc main_arg4) by keep_host).trans ((W2_of_ne m ρ c main_arg4 (by decide)).trans
    (Eq.trans (b := W0 m ρ c (Proc.devRef .tc main_arg4)) (by keep_host) rfl))
theorem W4_arg5 : W4 m ρ c (Proc.devRef .tc main_arg5) = m ((c : Thread nD τ).loc main_arg5) :=
  (W4_of_ne m ρ c main_arg5 (by decide)).trans
  ((show W3 m ρ c (Proc.devRef .tc main_arg5) = W2 m ρ c (Proc.devRef .tc main_arg5) by keep_host).trans ((W2_of_ne m ρ c main_arg5 (by decide)).trans
    (Eq.trans (b := W0 m ρ c (Proc.devRef .tc main_arg5)) (by keep_host) rfl)))
theorem W6_arg6 : W6 m ρ c (Proc.devRef .tc main_arg6) = m ((c : Thread nD τ).loc main_arg6) :=
  (show W6 m ρ c (Proc.devRef .tc main_arg6) = W5 m ρ c (Proc.devRef .tc main_arg6) by keep_host).trans ((W5_of_ne m ρ c main_arg6 (by decide)).trans
  ((W4_of_ne m ρ c main_arg6 (by decide)).trans
  ((show W3 m ρ c (Proc.devRef .tc main_arg6) = W2 m ρ c (Proc.devRef .tc main_arg6) by keep_host).trans ((W2_of_ne m ρ c main_arg6 (by decide)).trans
    (Eq.trans (b := W0 m ρ c (Proc.devRef .tc main_arg6)) (by keep_host) rfl)))))
theorem W7_arg7 : W7 m ρ c (Proc.devRef .tc main_arg7) = m ((c : Thread nD τ).loc main_arg7) :=
  (W7_of_ne m ρ c main_arg7 (by decide)).trans
  ((show W6 m ρ c (Proc.devRef .tc main_arg7) = W5 m ρ c (Proc.devRef .tc main_arg7) by keep_host).trans ((W5_of_ne m ρ c main_arg7 (by decide)).trans
  ((W4_of_ne m ρ c main_arg7 (by decide)).trans
  ((show W3 m ρ c (Proc.devRef .tc main_arg7) = W2 m ρ c (Proc.devRef .tc main_arg7) by keep_host).trans ((W2_of_ne m ρ c main_arg7 (by decide)).trans
    (Eq.trans (b := W0 m ρ c (Proc.devRef .tc main_arg7)) (by keep_host) rfl))))))
theorem W9_arg8 : W9 m ρ c (Proc.devRef .tc main_arg8) = m ((c : Thread nD τ).loc main_arg8) :=
  (show W9 m ρ c (Proc.devRef .tc main_arg8) = W8 m ρ c (Proc.devRef .tc main_arg8) by keep_host).trans ((W8_of_ne m ρ c main_arg8 (by decide)).trans
  ((W7_of_ne m ρ c main_arg8 (by decide)).trans
  ((show W6 m ρ c (Proc.devRef .tc main_arg8) = W5 m ρ c (Proc.devRef .tc main_arg8) by keep_host).trans ((W5_of_ne m ρ c main_arg8 (by decide)).trans
  ((W4_of_ne m ρ c main_arg8 (by decide)).trans
  ((show W3 m ρ c (Proc.devRef .tc main_arg8) = W2 m ρ c (Proc.devRef .tc main_arg8) by keep_host).trans ((W2_of_ne m ρ c main_arg8 (by decide)).trans
    (Eq.trans (b := W0 m ρ c (Proc.devRef .tc main_arg8)) (by keep_host) rfl))))))))
theorem W10_arg2 : W10 m ρ c (Proc.devRef .tc main_arg2) = m ((c : Thread nD τ).loc main_arg2) :=
  (W10_of_ne m ρ c main_arg2 (by decide)).trans
  ((show W9 m ρ c (Proc.devRef .tc main_arg2) = W8 m ρ c (Proc.devRef .tc main_arg2) by keep_host).trans ((W8_of_ne m ρ c main_arg2 (by decide)).trans
  ((W7_of_ne m ρ c main_arg2 (by decide)).trans
  ((show W6 m ρ c (Proc.devRef .tc main_arg2) = W5 m ρ c (Proc.devRef .tc main_arg2) by keep_host).trans ((W5_of_ne m ρ c main_arg2 (by decide)).trans
  ((W4_of_ne m ρ c main_arg2 (by decide)).trans
  ((show W3 m ρ c (Proc.devRef .tc main_arg2) = W2 m ρ c (Proc.devRef .tc main_arg2) by keep_host).trans ((W2_of_ne m ρ c main_arg2 (by decide)).trans
    (Eq.trans (b := W0 m ρ c (Proc.devRef .tc main_arg2)) (by keep_host) rfl)))))))))

/-! ## The two results -/

/-- A layer with the positive part: the dense product, its aggregation, the closing sum capped below by zero. -/
def layerRelu (src dst : IVec S800000 32) (ncol : Vec Ideal S800000x1 .f32) (dcol : Vec Ideal S50000x1 .f32)
    (x : Vec Ideal S50000x128 .f32) (w : Vec Ideal S128x128 .f32) (b : Vec Ideal S128 .f32) : Vec Ideal S50000x128 .f32 :=
  Cert.Spec.combReluArr (M := 50000) (K := 128) (agg128 src dst ncol (Cert.Lib.projArr (M := 50000) (K := 128) (N := 128) x w))
    (Cert.Lib.projArr (M := 50000) (K := 128) (N := 128) x w) dcol b zeroWord

/-- The last layer, 64 columns wide and without the positive part. -/
def layerOut (src dst : IVec S800000 32) (ncol : Vec Ideal S800000x1 .f32) (dcol : Vec Ideal S50000x1 .f32)
    (x : Vec Ideal S50000x128 .f32) (w : Vec Ideal S128x64 .f32) (b : Vec Ideal S64 .f32) : Vec Ideal S50000x64 .f32 :=
  Cert.Spec.combArr (M := 50000) (K := 64) (agg64 src dst ncol (Cert.Lib.projArr (M := 50000) (K := 128) (N := 64) x w))
    (Cert.Lib.projArr (M := 50000) (K := 128) (N := 64) x w) dcol b

/-- The features the kernel program returns, from the first stretch's columns and the arguments. -/
def features : Vec Ideal S50000x64 .f32 :=
  layerOut (W1 m ρ c (Proc.devRef .tc main_v1)) (W1 m ρ c (Proc.devRef .tc main_v3)) (W1 m ρ c (Proc.devRef .tc main_v33)) (W1 m ρ c (Proc.devRef .tc main_v17))
    (layerRelu (W1 m ρ c (Proc.devRef .tc main_v1)) (W1 m ρ c (Proc.devRef .tc main_v3)) (W1 m ρ c (Proc.devRef .tc main_v33)) (W1 m ρ c (Proc.devRef .tc main_v17))
      (layerRelu (W1 m ρ c (Proc.devRef .tc main_v1)) (W1 m ρ c (Proc.devRef .tc main_v3)) (W1 m ρ c (Proc.devRef .tc main_v33)) (W1 m ρ c (Proc.devRef .tc main_v17))
        (m ((c : Thread nD τ).loc main_arg0)) (m ((c : Thread nD τ).loc main_arg3)) (m ((c : Thread nD τ).loc main_arg4)))
      (m ((c : Thread nD τ).loc main_arg5)) (m ((c : Thread nD τ).loc main_arg6)))
    (m ((c : Thread nD τ).loc main_arg7)) (m ((c : Thread nD τ).loc main_arg8))

theorem W4_v47_eq : W4 m ρ c (Proc.devRef .tc main_v47) = layerRelu (W1 m ρ c (Proc.devRef .tc main_v1)) (W1 m ρ c (Proc.devRef .tc main_v3)) (W1 m ρ c (Proc.devRef .tc main_v33)) (W1 m ρ c (Proc.devRef .tc main_v17))
    (m ((c : Thread nD τ).loc main_arg0)) (m ((c : Thread nD τ).loc main_arg3)) (m ((c : Thread nD τ).loc main_arg4)) := by
  rw [W4_v47, W3_v46, W3_v34, W3_v17, W3_arg4, W2_v1, W2_v3, W2_v33, W2_v34, W1_arg0, W1_arg3]
  rfl

theorem W7_v61_eq : W7 m ρ c (Proc.devRef .tc main_v61) = layerRelu (W1 m ρ c (Proc.devRef .tc main_v1)) (W1 m ρ c (Proc.devRef .tc main_v3)) (W1 m ρ c (Proc.devRef .tc main_v33)) (W1 m ρ c (Proc.devRef .tc main_v17))
    (W4 m ρ c (Proc.devRef .tc main_v47)) (m ((c : Thread nD τ).loc main_arg5)) (m ((c : Thread nD τ).loc main_arg6)) := by
  rw [W7_v61, W6_v60, W6_v48, W6_v17, W6_arg6, W5_v1, W5_v3, W5_v33, W5_v48, W4_arg5]
  rfl

theorem W10_v75_eq : W10 m ρ c (Proc.devRef .tc main_v75) = layerOut (W1 m ρ c (Proc.devRef .tc main_v1)) (W1 m ρ c (Proc.devRef .tc main_v3)) (W1 m ρ c (Proc.devRef .tc main_v33)) (W1 m ρ c (Proc.devRef .tc main_v17))
    (W7 m ρ c (Proc.devRef .tc main_v61)) (m ((c : Thread nD τ).loc main_arg7)) (m ((c : Thread nD τ).loc main_arg8)) := by
  rw [W10_v75, W9_v74, W9_v62, W9_v17, W9_arg8, W8_v1, W8_v3, W8_v33, W8_v62, W7_arg7]
  rfl

/-- THE FEATURES: the first returned buffer ends at three layers of the arguments. -/
theorem kernel_features : W13 m ρ c (Proc.devRef .tc main_v75) = features m ρ c := by
  rw [W13_v75, W10_v75_eq, W7_v61_eq, W4_v47_eq]
  rfl

/-- THE POOLED MEANS: the second returned buffer ends at the last stretch of the pool region's sums and counts of the
    features, the labels being the third argument as a column. -/
theorem kernel_pool : W13 m ρ c (Proc.devRef .tc main_v82)
    = tail (Cert.Spec.poolSums (N := 50000) (G := 64) (D := 64) (features m ρ c) (shapeCast S50000x1 (m ((c : Thread nD τ).loc main_arg2)) shapeCasts_S50000_S50000x1))
        (Cert.Spec.poolCnts (N := 50000) (G := 64) (shapeCast S50000x1 (m ((c : Thread nD τ).loc main_arg2)) shapeCasts_S50000_S50000x1)) := by
  rw [W13_v82, W12_v77_0, W12_v77_1, W11_v76, W10_arg2, W11_v75, ← W13_v75, kernel_features]

end Cert.KernelIdeal.Walk

end
-- ==== Proof.BridgeColumns.lean ====
/-
  The kernel program's first host stretch computes the reference's columns.

  From the edge array both programs compute the source and target lists, the inverse root of the target degrees, the
  product of that at an edge's two ends, and its square per node: the same operations in the same order. The kernel
  program then turns the last two into columns by a reshape, where the reference broadcasts them to columns; both read
  the same entries.
-/
import proofs.«420736_j32487132627312_1_alg».proof.Proof.KernelValue
import proofs.«420736_j32487132627312_1_alg».proof.Proof.Gen.ReferenceIdeal.Read
import proofs.«420736_j32487132627312_1_alg».proof.Proof.LibKeepdims
import Idealize.ShloMosaic.Lib.StableHlo.Run
import Idealize.ShloMosaic.Lib.Pipeline.Value

set_option maxRecDepth 16384

noncomputable section

namespace Cert.Bridge

open Idealize.ShloMosaic Idealize.ShloMosaic.ValueIdx Idealize.ShloMosaic.TcCoe Idealize.ShloMosaic.StableHlo
open Cert.ReferenceIdeal.Read

/-! ## A vector as a column, two ways -/

/-- Reshaping a length-`a` vector to an `[a, 1]` column and broadcasting it there read the same entries. -/
theorem col_eq {α : Type} {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  obtain ⟨p, u, rfl⟩ : ∃ (p : Fin a) (u : Fin 1), j = ix2 p u := ⟨j 0, j 1, eq_ix2 j⟩
  rw [Cert.Lib.shapeCast_a_a1_apply]
  refine (broadcastInDim_apply ![0] h' x (ix2 p u) (ix1 p) fun ax => ?_).symm
  match ax with
  | ⟨0, _⟩ =>
    show p.val = if a = 1 then 0 else p.val
    split
    · have := p.isLt; omega
    · rfl

/-! ## The first stretch's columns are the reference's stages -/

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option maxHeartbeats 40000000 in
theorem k_src : Cert.KernelIdeal.Gen.W1 m ρ c (Proc.devRef .tc Cert.KernelIdeal.main_v1) = val_main_v1 (F := Ideal) (m ((c : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v1) = _
  after_results
  rfl

set_option maxHeartbeats 40000000 in
theorem k_dst : Cert.KernelIdeal.Gen.W1 m ρ c (Proc.devRef .tc Cert.KernelIdeal.main_v3) = val_main_v3 (F := Ideal) (m ((c : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v3) = _
  after_results
  rfl

set_option maxHeartbeats 40000000 in
theorem k_ncol : Cert.KernelIdeal.Gen.W1 m ρ c (Proc.devRef .tc Cert.KernelIdeal.main_v33) = shapeCast Cert.KernelIdeal.S800000x1 (val_main_v31 (F := Ideal) (m ((c : Thread Cert.KernelIdeal.nD Cert.KernelIdeal.τ).loc Cert.KernelIdeal.main_arg1))) Cert.KernelIdeal.Gen.shapeCasts_S800000_S800000x1 := by
  show StableHlo.after Cert.KernelIdeal.Gen.hostOps0 (Cert.KernelIdeal.Gen.W0 m ρ c) (Proc.devRef .tc Cert.KernelIdeal.main_v33) = _
  after_results_simp
  rfl

set_option maxHeartbeats 40000000 in
theorem k_dcol : Cert.KernelIdeal.Gen.W1 m ρ c (Proc.devRef .tc Cert.KernelIdeal.main_v17) = shapeCast Cert.KernelIdeal.S50000x1 (val_main_v45 (F := Ideal) (m ((c : Thread Cert.KernelIdeal.nD Cert.KernelIdeal.τ).loc Cert.KernelIdeal.main_arg1))) Cert.KernelIdeal.Gen.shapeCasts_S50000_S50000x1 := by
  show StableHlo.after Cert.KernelIdeal.Gen.hostOps0 (Cert.KernelIdeal.Gen.W0 m ρ c) (Proc.devRef .tc Cert.KernelIdeal.main_v17) = _
  after_results_simp
  rfl

end Cert.Bridge

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.LibScatterHost.lean ====
import Idealize.ShloMosaic.PureOps.Ideal
import Idealize.ShloMosaic.PureOps.Contract
import Idealize.ShloMosaic.Lib.ValueIdx
import proofs.«420736_j32487132627312_1_alg».proof.Proof.LibScatterRows

/-!
# The host's scatter-add of rows in a program's spelling, read at an index

A program states `out = operand.at[idx].add(updates)` as `Host.scatterAdd` at its dimension numbers. At the ideal
values, for the dimension numbers of a row scatter, the result at `(r, c)` is the operand's entry plus the sum, over
the update rows `n` whose start row is `r`, of `updates (n, c)`. Stated over variable arrays: a use site names its own
arrays as arguments.
-/

noncomputable section

namespace Idealize.ShloMosaic.ScatterRows

open Idealize.ShloMosaic Idealize.ShloMosaic.ValueIdx

variable {R C N : Nat}

/-- THE PROGRAM'S ROW SCATTER-ADD AT AN INDEX. -/
theorem host_scatterAdd_apply (wf : ScatterDims.WF (⟨2, ![R, C]⟩ : Shape) ⟨2, ![N, 1]⟩ ⟨2, ![N, C]⟩ [1] [0] [0] 1) {w : Nat}
    (z : (⟨2, ![R, C]⟩ : Shape).Idx → EReal) (idx : IVec ⟨2, ![N, 1]⟩ w) (upd : (⟨2, ![N, C]⟩ : Shape).Idx → EReal)
    (r : Fin R) (c : Fin C) :
    Host.scatterAdd (F := Ideal) (φ := .f32) (dims2 wf) z idx upd (ix2 r c)
      = z (ix2 r c) + ∑ n : Fin N, if (idx (ix2 n (0 : Fin 1))).toInt = (r.val : Int) then upd (ix2 n c) else 0 :=
  scatterAdd_apply wf z idx upd r c

end Idealize.ShloMosaic.ScatterRows

end
-- ==== Proof.RefLayers.lean ====
/-
  The reference's closing steps and its mean pool, as whole-array functions over the extended reals.

  The reference spells a layer's closing step with broadcasts: the self-loop weights, a vector with one entry per node,
  are made a column and spread along the rows; the bias, a vector with one entry per feature, is made a row and spread
  down the columns; the positive part compares with a spread zero. Read at an entry `(n, k)` each spread array holds its
  vector's entry of the row or of the column, so the step is the entry-wise formula of the specification. The pool adds
  every node's row into the row of its graph, counts each graph's nodes the same way, and divides.
-/
import proofs.«420736_j32487132627312_1_alg».proof.Proof.Gen.ReferenceIdeal.Read
import proofs.«420736_j32487132627312_1_alg».proof.Proof.Spec
import proofs.«420736_j32487132627312_1_alg».proof.Proof.LibScatterHost
import proofs.«420736_j32487132627312_1_alg».proof.Proof.LibKeepdims
import Idealize.ShloMosaic.Lib.ValueIdx
import Idealize.ShloMosaic.Lib.Pipeline.Value

set_option maxRecDepth 16384

noncomputable section

namespace Cert.Bridge

open Idealize.ShloMosaic Idealize.ShloMosaic.ValueIdx
open Cert.ReferenceIdeal Cert.ReferenceIdeal.Gen Cert.ReferenceIdeal.Read

/-! ## Spread vectors read at an entry -/

/-- A length-`N` vector made an `[N, 1]` column holds, at `(n, u)`, the vector's entry `n`. -/
theorem bid_col_apply {α : Type} {N : ℕ} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply _ h x (ix2 n u) (ix1 n) fun a => ?_
  match a with
  | ⟨0, _⟩ =>
    show n.val = if N = 1 then 0 else n.val
    split
    · have := n.isLt; omega
    · rfl

/-- An `[N, 1]` column spread along the rows of an `[N, K]` array holds, at `(n, k)`, the column's entry of row `n`. -/
theorem bid_colSpread_apply {α : Type} {N K : ℕ} (x : (⟨2, ![N, 1]⟩ : Shape).Idx → α)
    (h : (⟨2, ![N, 1]⟩ : Shape).BroadcastsInDim ⟨2, ![N, K]⟩ ![0, 1]) (n : Fin N) (k : Fin K) :
    broadcastInDim ⟨2, ![N, K]⟩ ![0, 1] h x (ix2 n k) = x (ix2 n (0 : Fin 1)) := by
  refine broadcastInDim_apply _ h x (ix2 n k) (ix2 n (0 : Fin 1)) fun a => ?_
  match a with
  | ⟨0, _⟩ =>
    show n.val = if N = 1 then 0 else n.val
    split
    · have := n.isLt; omega
    · rfl
  | ⟨1, _⟩ => rfl

/-- A length-`K` vector made a `[1, K]` row holds, at `(u, k)`, the vector's entry `k`. -/
theorem bid_row_apply {α : Type} {K : ℕ} (x : (⟨1, ![K]⟩ : Shape).Idx → α)
    (h : (⟨1, ![K]⟩ : Shape).BroadcastsInDim ⟨2, ![1, K]⟩ ![1]) (u : Fin 1) (k : Fin K) :
    broadcastInDim ⟨2, ![1, K]⟩ ![1] h x (ix2 u k) = x (ix1 k) := by
  refine broadcastInDim_apply _ h x (ix2 u k) (ix1 k) fun a => ?_
  match a with
  | ⟨0, _⟩ =>
    show k.val = if K = 1 then 0 else k.val
    split
    · have := k.isLt; omega
    · rfl

/-- A `[1, K]` row spread down the columns of an `[N, K]` array holds, at `(n, k)`, the row's entry of column `k`. -/
theorem bid_rowSpread_apply {α : Type} {N K : ℕ} (x : (⟨2, ![1, K]⟩ : Shape).Idx → α)
    (h : (⟨2, ![1, K]⟩ : Shape).BroadcastsInDim ⟨2, ![N, K]⟩ ![0, 1]) (n : Fin N) (k : Fin K) :
    broadcastInDim ⟨2, ![N, K]⟩ ![0, 1] h x (ix2 n k) = x (ix2 (0 : Fin 1) k) := by
  refine broadcastInDim_apply _ h x (ix2 n k) (ix2 (0 : Fin 1) k) fun a => ?_
  match a with
  | ⟨0, _⟩ => rfl
  | ⟨1, _⟩ =>
    show k.val = if K = 1 then 0 else k.val
    split
    · have := k.isLt; omega
    · rfl

/-! ## The closing steps -/

/-- The spread zero of the positive part is, at every entry, the number the zero word encodes. -/
theorem relu_zero_apply (i : S50000x128.Idx) :
    val_main_call0_v0 (F := Ideal) i = Scalar.ofBits (F := Ideal) .f32 0x00000000#32 := by
  rw [val_main_call0_v0_apply]
  rfl

/-- The first two layers' closing step as the reference spells it is the specification's, entry by entry. -/
theorem ref_comb_relu (agg h : Vec Ideal S50000x128 .f32) (dd : Vec Ideal S50000 .f32) (b : Vec Ideal S128 .f32) (hsc : S50000.ShapeCasts S50000x1) :
    maximumf (F := Ideal) (φ := .f32) (addf (addf agg (mulf h (broadcastInDim S50000x128 ![0, 1] bcast_S50000x1_S50000x128_0_1 (broadcastInDim S50000x1 ![0] bcast_S50000_S50000x1_0 dd)))) (broadcastInDim S50000x128 ![0, 1] bcast_S1x128_S50000x128_0_1 (broadcastInDim S1x128 ![1] bcast_S128_S1x128_1 b))) (val_main_call0_v0 (F := Ideal))
      = Cert.Spec.combReluArr (M := 50000) (K := 128) agg h (shapeCast S50000x1 dd hsc) b (Scalar.ofBits (F := Ideal) .f32 0x00000000#32) := by
  funext j
  obtain ⟨p, q, rfl⟩ : ∃ (p : Fin 50000) (q : Fin 128), j = ix2 p q := ⟨j 0, j 1, eq_ix2 j⟩
  rw [maximumf_apply, addf_apply, addf_apply, mulf_apply, bid_colSpread_apply, bid_col_apply, bid_rowSpread_apply,
    bid_row_apply, relu_zero_apply]
  unfold Cert.Spec.combReluArr Cert.Spec.combArr
  rw [Cert.Lib.shapeCast_a_a1_apply]

/-- The last layer's closing step as the reference spells it is the specification's, entry by entry. -/
theorem ref_comb (agg h : Vec Ideal S50000x64 .f32) (dd : Vec Ideal S50000 .f32) (b : Vec Ideal S64 .f32) (hsc : S50000.ShapeCasts S50000x1) :
    addf (F := Ideal) (φ := .f32) (addf agg (mulf h (broadcastInDim S50000x64 ![0, 1] bcast_S50000x1_S50000x64_0_1 (broadcastInDim S50000x1 ![0] bcast_S50000_S50000x1_0 dd)))) (broadcastInDim S50000x64 ![0, 1] bcast_S1x64_S50000x64_0_1 (broadcastInDim S1x64 ![1] bcast_S64_S1x64_1 b))
      = Cert.Spec.combArr (M := 50000) (K := 64) agg h (shapeCast S50000x1 dd hsc) b := by
  funext j
  obtain ⟨p, q, rfl⟩ : ∃ (p : Fin 50000) (q : Fin 64), j = ix2 p q := ⟨j 0, j 1, eq_ix2 j⟩
  rw [addf_apply, addf_apply, mulf_apply, bid_colSpread_apply, bid_col_apply, bid_rowSpread_apply, bid_row_apply]
  unfold Cert.Spec.combArr
  rw [Cert.Lib.shapeCast_a_a1_apply]

/-! ## The mean pool -/

/-- The word of `1.0` encodes the number one. -/
theorem one_word : Ideal.ofBits .f32 0x3F800000#32 = 1 := IdealRules.sign_bit.ideal_onePat .f32

/-- The labels made a column by a broadcast and by a shape cast hold the same entries. -/
theorem label_col_apply (lab : IVec S50000 32) (hsc : S50000.ShapeCasts S50000x1) (n : Fin 50000) :
    broadcastInDim S50000x1 ![0] bcast_S50000_S50000x1_0 lab (ix2 n (0 : Fin 1)) = shapeCast S50000x1 lab hsc (ix2 n (0 : Fin 1)) := by
  rw [bid_col_apply, Cert.Lib.shapeCast_a_a1_apply]

/-- The rows of each graph summed: the scatter-add of the node rows into the zero array, at `(g, d)`. -/
theorem pool_sums_apply (feat : Vec Ideal S50000x64 .f32) (lab : IVec S50000 32) (hsc : S50000.ShapeCasts S50000x1) (g d : Fin 64) :
    Host.scatterAdd (F := Ideal) (φ := .f32) scatter_S64x64_S50000x1_S50000x64_1_0_0_1 (val_main_v129 (F := Ideal)) (val_main_v130 (F := Ideal) lab) feat (ix2 g d)
      = Cert.Spec.poolSums (N := 50000) (G := 64) (D := 64) feat (shapeCast S50000x1 lab hsc) (ix2 g d) := by
  refine (ScatterRows.host_scatterAdd_apply (R := 64) (C := 64) (N := 50000) scatter_S64x64_S50000x1_S50000x64_1_0_0_1_wf
    (val_main_v129 (F := Ideal)) (val_main_v130 (F := Ideal) lab) feat g d).trans ?_
  rw [val_main_v129_apply]
  show Ideal.ofBits .f32 0x00000000#32 + _ = _
  rw [Ideal.ofBits_zero_f32, zero_add]
  unfold Cert.Spec.poolSums
  refine Finset.sum_congr rfl fun n _ => ?_
  unfold val_main_v130
  rw [label_col_apply lab hsc n]

/-- Each graph's number of nodes: the scatter-add of ones into the zero vector, at `g`. -/
theorem pool_cnts_apply (lab : IVec S50000 32) (hsc : S50000.ShapeCasts S50000x1) (g : Fin 64) :
    val_main_v135 (F := Ideal) lab (ix1 g)
      = Cert.Spec.poolCnts (N := 50000) (G := 64) (shapeCast S50000x1 lab hsc) (ix2 (0 : Fin 1) g) := by
  unfold val_main_v135
  refine (ScatterRows.vscatterAdd_apply (R := 64) (N := 50000) scatter_S64_S50000x1_S50000_n_0_0_1_wf
    (val_main_v133 (F := Ideal)) (val_main_v134 (F := Ideal) lab) (val_main_v132 (F := Ideal)) g).trans ?_
  rw [val_main_v133_apply]
  show Ideal.ofBits .f32 0x00000000#32 + _ = _
  rw [Ideal.ofBits_zero_f32, zero_add]
  unfold Cert.Spec.poolCnts
  refine Finset.sum_congr rfl fun n _ => ?_
  rw [val_main_v132_apply]
  unfold val_main_v134
  rw [label_col_apply lab hsc n]
  show (if _ then Ideal.ofBits .f32 0x3F800000#32 else 0) = _
  rw [one_word]

/-- The divisor array: at `(g, d)` the count of graph `g`, capped below by one. -/
theorem pool_div_apply (lab : IVec S50000 32) (hsc : S50000.ShapeCasts S50000x1) (g d : Fin 64) :
    val_main_v139 (F := Ideal) lab (ix2 g d)
      = max (Cert.Spec.poolCnts (N := 50000) (G := 64) (shapeCast S50000x1 lab hsc) (ix2 (0 : Fin 1) g)) (Ideal.ofBits .f32 0x3F800000#32) := by
  unfold val_main_v139 val_main_v138
  rw [bid_colSpread_apply, bid_col_apply, val_main_v137_apply, pool_cnts_apply lab hsc g, val_main_v136_apply]
  rfl

/-- The reference's mean pool is the specification's: each graph's summed rows over its capped count. -/
theorem ref_pool (feat : Vec Ideal S50000x64 .f32) (lab : IVec S50000 32) (hsc : S50000.ShapeCasts S50000x1) :
    Host.divf (F := Ideal) (φ := .f32) (Host.scatterAdd (F := Ideal) (φ := .f32) scatter_S64x64_S50000x1_S50000x64_1_0_0_1 (val_main_v129 (F := Ideal)) (val_main_v130 (F := Ideal) lab) feat) (val_main_v139 (F := Ideal) lab)
      = Cert.Spec.meanArr (Cert.Spec.poolSums (N := 50000) (G := 64) (D := 64) feat (shapeCast S50000x1 lab hsc)) (Cert.Spec.poolCnts (N := 50000) (G := 64) (shapeCast S50000x1 lab hsc)) (Ideal.ofBits .f32 0x3F800000#32) := by
  funext j
  obtain ⟨g, d, rfl⟩ : ∃ (g : Fin 64) (d : Fin 64), j = ix2 g d := ⟨j 0, j 1, eq_ix2 j⟩
  show FloatOps.hostDivf _ _ = _
  rw [pool_sums_apply feat lab hsc g d, pool_div_apply lab hsc g d]
  rfl

end Cert.Bridge

end
-- ==== Proof.Bridge.lean ====
/-
  The two programs compute the same arrays.

  The kernel program's first host stretch and the reference compute the same edge lists, inverse-root-degree products
  and squares from the edge array: the same operations in the same order, except that the kernel turns a vector into
  a column by a reshape where the reference broadcasts it, which reads the same entries. A layer of the kernel program
  (dense product, aggregation, closing sum) is then the reference's layer: the two dense products are one sum along
  the contracted axis, the aggregations are the same host operations on equal operands, and the closing sums agree
  entry by entry. The pooled means agree because a graph's sum over the nodes whose label equals the graph's number is
  what the reference's scatter-add of the rows at their labels leaves in the graph's row.
-/
import proofs.«420736_j32487132627312_1_alg».proof.Proof.KernelValue
import proofs.«420736_j32487132627312_1_alg».proof.Proof.BridgeColumns
import proofs.«420736_j32487132627312_1_alg».proof.Proof.RefLayers
import proofs.«420736_j32487132627312_1_alg».proof.Proof.Gen.ReferenceIdeal.Read
import proofs.«420736_j32487132627312_1_alg».proof.Proof.LibRowOps
import proofs.«420736_j32487132627312_1_alg».proof.Proof.LibKeepdims
import Idealize.ShloMosaic.Lib.StableHlo.Run
import Idealize.ShloMosaic.Lib.Pipeline.Value

set_option maxRecDepth 16384

noncomputable section

namespace Cert.Bridge

open Idealize.ShloMosaic Idealize.ShloMosaic.ValueIdx Idealize.ShloMosaic.TcCoe Idealize.ShloMosaic.StableHlo
open Cert.ReferenceIdeal.Read

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! ## The aggregation -/

/-- The reference's neighbour aggregation of one layer as a function of the rows it gathers, 128 columns wide. -/
def rAgg128 (ei : IVec Cert.ReferenceIdeal.S2x800000 32) (h : FVec Ideal Cert.ReferenceIdeal.S50000x128 .f32) : FVec Ideal Cert.ReferenceIdeal.S50000x128 .f32 :=
  Host.scatterAdd (F := Ideal) (φ := .f32) Cert.ReferenceIdeal.scatter_S50000x128_S800000x1_S800000x128_1_0_0_1 (val_main_v42 (F := Ideal)) (val_main_v43 (F := Ideal) ei)
    (mulf (Host.gather Cert.ReferenceIdeal.gather_S50000x128_S800000x1_S800000x128_1_0_n_n_0_1_1128 h (val_main_v37 (F := Ideal) ei)) (val_main_v40 (F := Ideal) ei))

/-- The same, 64 columns wide. -/
def rAgg64 (ei : IVec Cert.ReferenceIdeal.S2x800000 32) (h : FVec Ideal Cert.ReferenceIdeal.S50000x64 .f32) : FVec Ideal Cert.ReferenceIdeal.S50000x64 .f32 :=
  Host.scatterAdd (F := Ideal) (φ := .f32) Cert.ReferenceIdeal.scatter_S50000x64_S800000x1_S800000x64_1_0_0_1 (val_main_v118 (F := Ideal)) (val_main_v119 (F := Ideal) ei)
    (mulf (Host.gather Cert.ReferenceIdeal.gather_S50000x64_S800000x1_S800000x64_1_0_n_n_0_1_164 h (val_main_v113 (F := Ideal) ei)) (val_main_v116 (F := Ideal) ei))

theorem agg128_eq (ei : IVec Cert.ReferenceIdeal.S2x800000 32) (h : FVec Ideal Cert.ReferenceIdeal.S50000x128 .f32) :
    Cert.KernelIdeal.Walk.agg128 (val_main_v1 (F := Ideal) ei) (val_main_v3 (F := Ideal) ei)
      (shapeCast Cert.KernelIdeal.S800000x1 (val_main_v31 (F := Ideal) ei) Cert.KernelIdeal.Gen.shapeCasts_S800000_S800000x1) h = rAgg128 ei h := by
  unfold Cert.KernelIdeal.Walk.agg128 rAgg128
  rw [col_eq (val_main_v31 (F := Ideal) ei) Cert.KernelIdeal.Gen.shapeCasts_S800000_S800000x1 Cert.ReferenceIdeal.Gen.bcast_S800000_S800000x1_0]
  rfl

theorem agg64_eq (ei : IVec Cert.ReferenceIdeal.S2x800000 32) (h : FVec Ideal Cert.ReferenceIdeal.S50000x64 .f32) :
    Cert.KernelIdeal.Walk.agg64 (val_main_v1 (F := Ideal) ei) (val_main_v3 (F := Ideal) ei)
      (shapeCast Cert.KernelIdeal.S800000x1 (val_main_v31 (F := Ideal) ei) Cert.KernelIdeal.Gen.shapeCasts_S800000_S800000x1) h = rAgg64 ei h := by
  unfold Cert.KernelIdeal.Walk.agg64 rAgg64
  rw [col_eq (val_main_v31 (F := Ideal) ei) Cert.KernelIdeal.Gen.shapeCasts_S800000_S800000x1 Cert.ReferenceIdeal.Gen.bcast_S800000_S800000x1_0]
  rfl

/-! ## The layers -/

/-- The reference's layer with the positive part, as a function of its input rows, weights and bias. -/
def rLayerRelu (ei : IVec Cert.ReferenceIdeal.S2x800000 32) (x : FVec Ideal Cert.ReferenceIdeal.S50000x128 .f32) (w : FVec Ideal Cert.ReferenceIdeal.S128x128 .f32) (b : FVec Ideal Cert.ReferenceIdeal.S128 .f32) :
    FVec Ideal Cert.ReferenceIdeal.S50000x128 .f32 :=
  maximumf (F := Ideal) (φ := .f32)
    (addf (addf (rAgg128 ei (Host.dotGeneral (F := Ideal) (φ₁ := .f32) (φ₂ := .f32) Cert.ReferenceIdeal.dot_S50000x128_S128x128_S50000x128_1_0_0_1_n_n none x w))
        (mulf (Host.dotGeneral (F := Ideal) (φ₁ := .f32) (φ₂ := .f32) Cert.ReferenceIdeal.dot_S50000x128_S128x128_S50000x128_1_0_0_1_n_n none x w) (val_main_v47 (F := Ideal) ei)))
      (val_main_v51 (F := Ideal) b))
    (val_main_call0_v0 (F := Ideal))

/-- The reference's last layer. -/
def rLayerOut (ei : IVec Cert.ReferenceIdeal.S2x800000 32) (x : FVec Ideal Cert.ReferenceIdeal.S50000x128 .f32) (w : FVec Ideal Cert.ReferenceIdeal.S128x64 .f32) (b : FVec Ideal Cert.ReferenceIdeal.S64 .f32) :
    FVec Ideal Cert.ReferenceIdeal.S50000x64 .f32 :=
  addf (F := Ideal) (φ := .f32)
    (addf (rAgg64 ei (Host.dotGeneral (F := Ideal) (φ₁ := .f32) (φ₂ := .f32) Cert.ReferenceIdeal.dot_S50000x128_S128x64_S50000x64_1_0_0_1_n_n none x w))
      (mulf (Host.dotGeneral (F := Ideal) (φ₁ := .f32) (φ₂ := .f32) Cert.ReferenceIdeal.dot_S50000x128_S128x64_S50000x64_1_0_0_1_n_n none x w) (val_main_v123 (F := Ideal) ei)))
    (val_main_v127 (F := Ideal) b)

theorem layerRelu_eq (ei : IVec Cert.ReferenceIdeal.S2x800000 32) (x : FVec Ideal Cert.ReferenceIdeal.S50000x128 .f32) (w : FVec Ideal Cert.ReferenceIdeal.S128x128 .f32) (b : FVec Ideal Cert.ReferenceIdeal.S128 .f32) :
    Cert.KernelIdeal.Walk.layerRelu (val_main_v1 (F := Ideal) ei) (val_main_v3 (F := Ideal) ei)
      (shapeCast Cert.KernelIdeal.S800000x1 (val_main_v31 (F := Ideal) ei) Cert.KernelIdeal.Gen.shapeCasts_S800000_S800000x1)
      (shapeCast Cert.KernelIdeal.S50000x1 (val_main_v45 (F := Ideal) ei) Cert.KernelIdeal.Gen.shapeCasts_S50000_S50000x1) x w b = rLayerRelu ei x w b := by
  unfold Cert.KernelIdeal.Walk.layerRelu rLayerRelu
  rw [agg128_eq]
  have hd : Host.dotGeneral (F := Ideal) (φ₁ := .f32) (φ₂ := .f32) Cert.ReferenceIdeal.dot_S50000x128_S128x128_S50000x128_1_0_0_1_n_n none x w
      = Cert.Lib.projArr (M := 50000) (K := 128) (N := 128) x w := Cert.Lib.host_dot_eq (M := 50000) (K := 128) (N := 128) none x w
  rw [hd]
  exact (ref_comb_relu _ _ (val_main_v45 (F := Ideal) ei) b Cert.KernelIdeal.Gen.shapeCasts_S50000_S50000x1).symm

theorem layerOut_eq (ei : IVec Cert.ReferenceIdeal.S2x800000 32) (x : FVec Ideal Cert.ReferenceIdeal.S50000x128 .f32) (w : FVec Ideal Cert.ReferenceIdeal.S128x64 .f32) (b : FVec Ideal Cert.ReferenceIdeal.S64 .f32) :
    Cert.KernelIdeal.Walk.layerOut (val_main_v1 (F := Ideal) ei) (val_main_v3 (F := Ideal) ei)
      (shapeCast Cert.KernelIdeal.S800000x1 (val_main_v31 (F := Ideal) ei) Cert.KernelIdeal.Gen.shapeCasts_S800000_S800000x1)
      (shapeCast Cert.KernelIdeal.S50000x1 (val_main_v45 (F := Ideal) ei) Cert.KernelIdeal.Gen.shapeCasts_S50000_S50000x1) x w b = rLayerOut ei x w b := by
  unfold Cert.KernelIdeal.Walk.layerOut rLayerOut
  rw [agg64_eq]
  have hd : Host.dotGeneral (F := Ideal) (φ₁ := .f32) (φ₂ := .f32) Cert.ReferenceIdeal.dot_S50000x128_S128x64_S50000x64_1_0_0_1_n_n none x w
      = Cert.Lib.projArr (M := 50000) (K := 128) (N := 64) x w := Cert.Lib.host_dot_eq (M := 50000) (K := 128) (N := 64) none x w
  rw [hd]
  exact (ref_comb _ _ (val_main_v45 (F := Ideal) ei) b Cert.KernelIdeal.Gen.shapeCasts_S50000_S50000x1).symm

/-! ## The reference's stages are its layers -/

set_option maxRecDepth 1000000 in
theorem ref_layer1 (x0 : FVec Ideal Cert.ReferenceIdeal.S50000x128 .f32) (ei : IVec Cert.ReferenceIdeal.S2x800000 32) (x3 : FVec Ideal Cert.ReferenceIdeal.S128x128 .f32) (x4 : FVec Ideal Cert.ReferenceIdeal.S128 .f32) :
    val_main_v53 (F := Ideal) x0 ei x3 x4 = rLayerRelu ei x0 x3 x4 := rfl

set_option maxRecDepth 1000000 in
theorem ref_layer2 (x0 : FVec Ideal Cert.ReferenceIdeal.S50000x128 .f32) (ei : IVec Cert.ReferenceIdeal.S2x800000 32) (x3 : FVec Ideal Cert.ReferenceIdeal.S128x128 .f32) (x4 : FVec Ideal Cert.ReferenceIdeal.S128 .f32)
    (x5 : FVec Ideal Cert.ReferenceIdeal.S128x128 .f32) (x6 : FVec Ideal Cert.ReferenceIdeal.S128 .f32) :
    val_main_v91 (F := Ideal) x0 ei x3 x4 x5 x6 = rLayerRelu ei (val_main_v53 (F := Ideal) x0 ei x3 x4) x5 x6 := rfl

set_option maxRecDepth 1000000 in
theorem ref_layer3 (x0 : FVec Ideal Cert.ReferenceIdeal.S50000x128 .f32) (ei : IVec Cert.ReferenceIdeal.S2x800000 32) (x3 : FVec Ideal Cert.ReferenceIdeal.S128x128 .f32) (x4 : FVec Ideal Cert.ReferenceIdeal.S128 .f32)
    (x5 : FVec Ideal Cert.ReferenceIdeal.S128x128 .f32) (x6 : FVec Ideal Cert.ReferenceIdeal.S128 .f32) (x7 : FVec Ideal Cert.ReferenceIdeal.S128x64 .f32) (x8 : FVec Ideal Cert.ReferenceIdeal.S64 .f32) :
    val_main_v128 (F := Ideal) x0 ei x3 x4 x5 x6 x7 x8 = rLayerOut ei (val_main_v91 (F := Ideal) x0 ei x3 x4 x5 x6) x7 x8 := rfl

/-! ## The two results -/

/-- THE FEATURES: the kernel program's are the reference's last stage of the same arguments. -/
theorem features_eq : Cert.KernelIdeal.Walk.features m ρ c
    = val_main_v128 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  unfold Cert.KernelIdeal.Walk.features
  rw [k_src, k_dst, k_ncol, k_dcol, layerRelu_eq, layerRelu_eq, layerOut_eq, ref_layer3, ref_layer2, ref_layer1]

/-- The last stretch entry by entry: a graph's sum over its count capped below by one. -/
theorem tail_eq (sums : Vec Ideal Cert.KernelIdeal.S64x64 .f32) (cnts : Vec Ideal Cert.KernelIdeal.S1x64 .f32) :
    Cert.KernelIdeal.Walk.tail sums cnts = Cert.Spec.meanArr (G := 64) (D := 64) sums cnts (Ideal.ofBits .f32 0x3F800000#32) := by
  funext i
  obtain ⟨g, d, rfl⟩ : ∃ (g : Fin 64) (d : Fin 64), i = ix2 g d := ⟨i 0, i 1, eq_ix2 i⟩
  unfold Cert.KernelIdeal.Walk.tail Cert.Spec.meanArr
  show FloatOps.hostDivf (F := Ideal) (φ := .f32) (sums (ix2 g d)) _ = FloatOps.hostDivf (F := Ideal) (φ := .f32) (sums (ix2 g d)) _
  refine congrArg (FloatOps.hostDivf (F := Ideal) (φ := .f32) (sums (ix2 g d))) ?_
  rw [broadcastInDim_apply ![0, 1] Cert.KernelIdeal.Gen.bcast_S64x1_S64x64_0_1 _ (ix2 g d) (ix2 g (0 : Fin 1)) (fun ax => by
    match ax with
    | ⟨0, _⟩ => rfl
    | ⟨1, _⟩ => rfl)]
  rw [maximumf_apply]
  have e1 : shapeCast Cert.KernelIdeal.S64x1 cnts Cert.KernelIdeal.Gen.shapeCasts_S1x64_S64x1 (ix2 g (0 : Fin 1)) = cnts (ix2 (0 : Fin 1) g) :=
    shapeCast_apply cnts Cert.KernelIdeal.Gen.shapeCasts_S1x64_S64x1 _ _ (by
      rw [Shape.rowMajor_val_two, Shape.rowMajor_val_two]
      show 0 * 64 + g.val = g.val * 1 + 0
      omega)
  have e2 : broadcastInDim Cert.KernelIdeal.S64x1 ![] Cert.KernelIdeal.Gen.bcast_S_S64x1 (constant (F := Ideal) Cert.KernelIdeal.S_ .f32 0x3F800000#32) (ix2 g (0 : Fin 1))
      = Ideal.ofBits .f32 0x3F800000#32 :=
    broadcastInDim_apply ![] Cert.KernelIdeal.Gen.bcast_S_S64x1 _ (ix2 g (0 : Fin 1)) ix0 (fun ax => ax.elim0)
  rw [e1, e2]

/-- THE POOLED MEANS: the kernel program's are the reference's last stage of the same arguments. -/
theorem pool_eq : Cert.KernelIdeal.Walk.tail
      (Cert.Spec.poolSums (N := 50000) (G := 64) (D := 64) (Cert.KernelIdeal.Walk.features m ρ c) (shapeCast Cert.KernelIdeal.S50000x1 (m ((c : Thread Cert.KernelIdeal.nD Cert.KernelIdeal.τ).loc Cert.KernelIdeal.main_arg2)) Cert.KernelIdeal.Gen.shapeCasts_S50000_S50000x1))
      (Cert.Spec.poolCnts (N := 50000) (G := 64) (shapeCast Cert.KernelIdeal.S50000x1 (m ((c : Thread Cert.KernelIdeal.nD Cert.KernelIdeal.τ).loc Cert.KernelIdeal.main_arg2)) Cert.KernelIdeal.Gen.shapeCasts_S50000_S50000x1))
    = val_main_v140 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  rw [tail_eq, features_eq]
  exact (ref_pool _ _ Cert.KernelIdeal.Gen.shapeCasts_S50000_S50000x1).symm

end Cert.Bridge

end
-- ==== Proof.lean ====
/-
  A three-layer graph convolution with a mean pool, tiled, against the plain reference.

  Each layer multiplies the node features into a weight matrix, gathers the products at the edges' source nodes,
  scales them by the edges' symmetric degree weights, adds them into the target nodes' rows, and closes with the
  node's own product times its self-loop weight plus the bias (the first two layers then take the positive part).
  The kernel program runs the dense products and the closing sums as regions of 5000 rows and pools by a one-hot
  matrix product accumulated over the row blocks; the reference multiplies whole arrays and pools by a scatter-add
  at the node labels. Over the extended reals the rounding on the way into the products is the identity, a tiled
  product is the whole product restricted to the tile, a node's one-hot row picks exactly the terms whose label is
  the graph's number, and zero times any extended real is zero, so both programs end with the same two arrays.
  The frames are the generated ones (the reference's is its run with the results dropped); no operation was
  rewritten by the idealization, so nothing is owed for it.
-/
import proofs.«420736_j32487132627312_1_alg».proof.Defs
import proofs.«420736_j32487132627312_1_alg».proof.Proof.Gen.Kernel
import proofs.«420736_j32487132627312_1_alg».proof.Proof.Gen.Kernel.Skeleton
import proofs.«420736_j32487132627312_1_alg».proof.Proof.Gen.Kernel.Launch
import proofs.«420736_j32487132627312_1_alg».proof.Proof.Gen.Kernel.Points
import proofs.«420736_j32487132627312_1_alg».proof.Proof.Gen.Kernel.Frame
import proofs.«420736_j32487132627312_1_alg».proof.Proof.Gen.KernelIdeal
import proofs.«420736_j32487132627312_1_alg».proof.Proof.Gen.KernelIdeal.Skeleton
import proofs.«420736_j32487132627312_1_alg».proof.Proof.Gen.KernelIdeal.Launch
import proofs.«420736_j32487132627312_1_alg».proof.Proof.Gen.KernelIdeal.Points
import proofs.«420736_j32487132627312_1_alg».proof.Proof.Gen.KernelIdeal.Frame
import proofs.«420736_j32487132627312_1_alg».proof.Proof.Gen.ReferenceIdeal
import proofs.«420736_j32487132627312_1_alg».proof.Proof.Gen.ReferenceIdeal.Run
import proofs.«420736_j32487132627312_1_alg».proof.Proof.Gen.ReferenceIdeal.Read
import proofs.«420736_j32487132627312_1_alg».proof.Proof.Gen.Pre_finite_inputs
import proofs.«420736_j32487132627312_1_alg».proof.Proof.KernelRun
import proofs.«420736_j32487132627312_1_alg».proof.Proof.KernelValue
import proofs.«420736_j32487132627312_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs, run from memories that agree on the arguments, end with the features at three layers of
    the arguments and the pooled means at the last stretch of their sums and counts. -/
theorem algebraic : Cert.algebraic_KernelIdeal_ReferenceIdeal := by
  intro m ρ m' ρ' _ hagree
  refine ⟨fun c => Cert.KernelIdeal.Walk.features m ρ c,
    fun c => Cert.KernelIdeal.Walk.tail
      (Cert.Spec.poolSums (N := 50000) (G := 64) (D := 64) (Cert.KernelIdeal.Walk.features m ρ c) (shapeCast Cert.KernelIdeal.S50000x1 (m ((c : Thread Cert.KernelIdeal.nD Cert.KernelIdeal.τ).loc Cert.KernelIdeal.main_arg2)) Cert.KernelIdeal.Gen.shapeCasts_S50000_S50000x1))
      (Cert.Spec.poolCnts (N := 50000) (G := 64) (shapeCast Cert.KernelIdeal.S50000x1 (m ((c : Thread Cert.KernelIdeal.nD Cert.KernelIdeal.τ).loc Cert.KernelIdeal.main_arg2)) Cert.KernelIdeal.Gen.shapeCasts_S50000_S50000x1)),
    ?_, ?_⟩
  · exact (θ_run Cert.KernelIdeal.defs _ _).mono
      (fun _ h c => ⟨(h c).1.trans (Cert.KernelIdeal.Walk.kernel_features m ρ c), (h c).2.1.trans (Cert.KernelIdeal.Walk.kernel_pool m ρ c), (h c).2.2⟩)
      (Cert.KernelIdeal.Gen.run_results (F := Ideal) m ρ)
  · refine (θ_run Cert.ReferenceIdeal.defs _ _).mono (fun _ h c => ?_) (Cert.ReferenceIdeal.Value.run (F := Ideal) m' ρ')
    obtain ⟨h0, h1, h2, h3, h4, h5, h6, h7, h8⟩ := hagree c
    refine ⟨(h c).1.trans ?_, (h c).2.1.trans ?_, (h c).2.2⟩
    · rw [Cert.ReferenceIdeal.Read.val_main_v128_eq, h0, h1, h3, h4, h5, h6, h7, h8]
      exact (Cert.Bridge.features_eq m ρ c).symm
    · rw [Cert.ReferenceIdeal.Read.val_main_v140_eq, h0, h1, h2, h3, h4, h5, h6, h7, h8]
      exact (Cert.Bridge.pool_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
